-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x1024 : Shape := ⟨4, ![32, 1, 512, 1024]⟩
abbrev S32x5000 : Shape := ⟨2, ![32, 5000]⟩
abbrev S_ : Shape := ⟨0, ![]⟩

class Facts : Prop where
  bcast_S_S32x1x512x1024 : S_.BroadcastsInDim S32x1x512x1024 (![] : Fin 0 → Fin S32x1x512x1024.rank)
  reducesTo_S32x1x512x1024_S_d0_1_2_3 : S32x1x512x1024.ReducesTo [0, 1, 2, 3] S_
  h_S_ : 0 < S_.numel
  bcast_S_S32x5000 : S_.BroadcastsInDim S32x5000 (![] : Fin 0 → Fin S32x5000.rank)
  reducesTo_S32x5000_S_d0_1 : S32x5000.ReducesTo [0, 1] S_

variable [Facts]

def fn_part1 {F : FTy → Type} [FloatOps F] (main_arg4 : IVec S32x5000 32) (main_v15 : IVec S_ 1) (main_c_5 : IVec S_ 32) : IVec S_ 1 :=
  let main_v16 : IVec S32x5000 32 := broadcastInDim S32x5000 ![] bcast_S_S32x5000 main_c_5
  let main_v17 : IVec S32x5000 1 := cmpi .sge main_arg4 main_v16
  let main_c_6 : IVec S_ 32 := constantI S_ 32 524288#32
  let main_v18 : IVec S32x5000 32 := broadcastInDim S32x5000 ![] bcast_S_S32x5000 main_c_6
  let main_v19 : IVec S32x5000 1 := cmpi .slt main_arg4 main_v18
  let main_v20 : IVec S32x5000 1 := andi main_v17 main_v19
  let main_c_7 : IVec S_ 1 := constantI S_ 1 1#1
  let main_v21 : IVec S_ 1 := (fun x v => Host.reduce IntOp.andi x v reducesTo_S32x5000_S_d0_1 h_S_) main_v20 main_c_7
  let main_v22 : IVec S_ 1 := andi main_v15 main_v21
  main_v22

def fn {F : FTy → Type} [FloatOps F] (main_arg0 : FVec F S32x1x512x1024 .f32) (main_arg1 : FVec F S32x1x512x1024 .f32) (main_arg2 : IVec S32x1x512x1024 1) (main_arg3 : IVec S32x5000 32) (main_arg4 : IVec S32x5000 32) : IVec S_ 1 :=
  let main_v0 : FVec F S32x1x512x1024 .f32 := Host.absf main_arg0
  let main_cst : FVec F S_ .f32 := constant S_ .f32 0x7F800000#32
  let main_v1 : FVec F S32x1x512x1024 .f32 := broadcastInDim S32x1x512x1024 ![] bcast_S_S32x1x512x1024 main_cst
  let main_v2 : IVec S32x1x512x1024 1 := cmpf .olt main_v0 main_v1
  let main_c : IVec S_ 1 := constantI S_ 1 1#1
  let main_v3 : IVec S_ 1 := (fun x v => Host.reduce IntOp.andi x v reducesTo_S32x1x512x1024_S_d0_1_2_3 h_S_) main_v2 main_c
  let main_v4 : FVec F S32x1x512x1024 .f32 := Host.absf main_arg1
  let main_cst_0 : FVec F S_ .f32 := constant S_ .f32 0x7F800000#32
  let main_v5 : FVec F S32x1x512x1024 .f32 := broadcastInDim S32x1x512x1024 ![] bcast_S_S32x1x512x1024 main_cst_0
  let main_v6 : IVec S32x1x512x1024 1 := cmpf .olt main_v4 main_v5
  let main_c_1 : IVec S_ 1 := constantI S_ 1 1#1
  let main_v7 : IVec S_ 1 := (fun x v => Host.reduce IntOp.andi x v reducesTo_S32x1x512x1024_S_d0_1_2_3 h_S_) main_v6 main_c_1
  let main_v8 : IVec S_ 1 := andi main_v3 main_v7
  let main_c_2 : IVec S_ 32 := constantI S_ 32 4294443008#32
  let main_v9 : IVec S32x5000 32 := broadcastInDim S32x5000 ![] bcast_S_S32x5000 main_c_2
  let main_v10 : IVec S32x5000 1 := cmpi .sge main_arg3 main_v9
  let main_c_3 : IVec S_ 32 := constantI S_ 32 524288#32
  let main_v11 : IVec S32x5000 32 := broadcastInDim S32x5000 ![] bcast_S_S32x5000 main_c_3
  let main_v12 : IVec S32x5000 1 := cmpi .slt main_arg3 main_v11
  let main_v13 : IVec S32x5000 1 := andi main_v10 main_v12
  let main_c_4 : IVec S_ 1 := constantI S_ 1 1#1
  let main_v14 : IVec S_ 1 := (fun x v => Host.reduce IntOp.andi x v reducesTo_S32x5000_S_d0_1 h_S_) main_v13 main_c_4
  let main_v15 : IVec S_ 1 := andi main_v8 main_v14
  let main_c_5 : IVec S_ 32 := constantI S_ 32 4294443008#32
  fn_part1 (F := F) main_arg4 main_v15 main_c_5
-- ==== Kernel.lean ====
abbrev S32x1x512x1024 : Shape := ⟨4, ![32, 1, 512, 1024]⟩
abbrev S32x5000 : Shape := ⟨2, ![32, 5000]⟩
abbrev S32x524288 : Shape := ⟨2, ![32, 524288]⟩
abbrev S_ : Shape := ⟨0, ![]⟩
abbrev S32x5000x1 : Shape := ⟨3, ![32, 5000, 1]⟩
abbrev S1 : Shape := ⟨1, ![1]⟩
abbrev S1x1x1 : Shape := ⟨3, ![1, 1, 1]⟩
abbrev S32x5120 : Shape := ⟨2, ![32, 5120]⟩
abbrev S32x1x5120 : Shape := ⟨3, ![32, 1, 5120]⟩
abbrev S32x1x128 : Shape := ⟨3, ![32, 1, 128]⟩
abbrev S1x1x5120 : Shape := ⟨3, ![1, 1, 5120]⟩
abbrev S1x1x128 : Shape := ⟨3, ![1, 1, 128]⟩
abbrev S5120 : Shape := ⟨1, ![5120]⟩
abbrev S1x5120 : Shape := ⟨2, ![1, 5120]⟩
abbrev S1x1 : Shape := ⟨2, ![1, 1]⟩
abbrev S1x128 : Shape := ⟨2, ![1, 128]⟩
abbrev S32x1x1 : Shape := ⟨3, ![32, 1, 1]⟩
abbrev S32 : Shape := ⟨1, ![32]⟩

abbrev nBuf : Space → Nat
  | .hbm => 186
  | .vmem => 14
  | .smem => 0
  | _ => 0

abbrev hbmTy0_0 (i : Nat) : BufTy := match i % 128 with
  | 0 => ⟨S32x1x512x1024, .f32⟩
  | 1 => ⟨S32x1x512x1024, .f32⟩
  | 2 => ⟨S32x1x512x1024, .i1⟩
  | 3 => ⟨S32x5000, .i32⟩
  | 4 => ⟨S32x5000, .i32⟩
  | 5 => ⟨S32x524288, .f32⟩
  | 6 => ⟨S32x524288, .f32⟩
  | 7 => ⟨S32x524288, .i1⟩
  | 8 => ⟨S32x524288, .f32⟩
  | 9 => ⟨S_, .i32⟩
  | 10 => ⟨S32x5000, .i32⟩
  | 11 => ⟨S32x5000, .i1⟩
  | 12 => ⟨S_, .i32⟩
  | 13 => ⟨S32x5000, .i32⟩
  | 14 => ⟨S32x5000, .i32⟩
  | 15 => ⟨S32x5000, .i32⟩
  | 16 => ⟨S32x5000x1, .i32⟩
  | 17 => ⟨S1, .i32⟩
  | 18 => ⟨S_, .i32⟩
  | 19 => ⟨S32x5000x1, .i32⟩
  | 20 => ⟨S32x5000x1, .i1⟩
  | 21 => ⟨S1x1x1, .i32⟩
  | 22 => ⟨S32x5000x1, .i32⟩
  | 23 => ⟨S32x5000x1, .i1⟩
  | 24 => ⟨S32x5000x1, .i1⟩
  | 25 => ⟨S_, .i1⟩
  | 26 => ⟨S32x5000, .i1⟩
  | 27 => ⟨S32x5000, .f32⟩
  | 28 => ⟨S_, .f32⟩
  | 29 => ⟨S32x5000, .f32⟩
  | 30 => ⟨S32x5000, .f32⟩
  | 31 => ⟨S_, .i32⟩
  | 32 => ⟨S32x5000, .i32⟩
  | 33 => ⟨S32x5000, .i1⟩
  | 34 => ⟨S_, .i32⟩
  | 35 => ⟨S32x5000, .i32⟩
  | 36 => ⟨S32x5000, .i32⟩
  | 37 => ⟨S32x5000, .i32⟩
  | 38 => ⟨S32x5000x1, .i32⟩
  | 39 => ⟨S1, .i32⟩
  | 40 => ⟨S_, .i32⟩
  | 41 => ⟨S32x5000x1, .i32⟩
  | 42 => ⟨S32x5000x1, .i1⟩
  | 43 => ⟨S1x1x1, .i32⟩
  | 44 => ⟨S32x5000x1, .i32⟩
  | 45 => ⟨S32x5000x1, .i1⟩
  | 46 => ⟨S32x5000x1, .i1⟩
  | 47 => ⟨S_, .i1⟩
  | 48 => ⟨S32x5000, .i1⟩
  | 49 => ⟨S32x5000, .f32⟩
  | 50 => ⟨S_, .f32⟩
  | 51 => ⟨S32x5000, .f32⟩
  | 52 => ⟨S32x5000, .f32⟩
  | 53 => ⟨S_, .i32⟩
  | 54 => ⟨S32x5000, .i32⟩
  | 55 => ⟨S32x5000, .i1⟩
  | 56 => ⟨S_, .i32⟩
  | 57 => ⟨S32x5000, .i32⟩
  | 58 => ⟨S32x5000, .i32⟩
  | 59 => ⟨S32x5000, .i32⟩
  | 60 => ⟨S32x5000x1, .i32⟩
  | 61 => ⟨S1, .i32⟩
  | 62 => ⟨S_, .i32⟩
  | 63 => ⟨S32x5000x1, .i32⟩
  | 64 => ⟨S32x5000x1, .i1⟩
  | 65 => ⟨S1x1x1, .i32⟩
  | 66 => ⟨S32x5000x1, .i32⟩
  | 67 => ⟨S32x5000x1, .i1⟩
  | 68 => ⟨S32x5000x1, .i1⟩
  | 69 => ⟨S_, .i1⟩
  | 70 => ⟨S32x5000, .i1⟩
  | 71 => ⟨S32x5000, .f32⟩
  | 72 => ⟨S_, .f32⟩
  | 73 => ⟨S32x5000, .f32⟩
  | 74 => ⟨S32x5000, .f32⟩
  | 75 => ⟨S_, .i32⟩
  | 76 => ⟨S32x5000, .i32⟩
  | 77 => ⟨S32x5000, .i1⟩
  | 78 => ⟨S_, .i32⟩
  | 79 => ⟨S32x5000, .i32⟩
  | 80 => ⟨S32x5000, .i32⟩
  | 81 => ⟨S32x5000, .i32⟩
  | 82 => ⟨S32x5000x1, .i32⟩
  | 83 => ⟨S1, .i32⟩
  | 84 => ⟨S_, .i32⟩
  | 85 => ⟨S32x5000x1, .i32⟩
  | 86 => ⟨S32x5000x1, .i1⟩
  | 87 => ⟨S1x1x1, .i32⟩
  | 88 => ⟨S32x5000x1, .i32⟩
  | 89 => ⟨S32x5000x1, .i1⟩
  | 90 => ⟨S32x5000x1, .i1⟩
  | 91 => ⟨S_, .i1⟩
  | 92 => ⟨S32x5000, .i1⟩
  | 93 => ⟨S32x5000, .f32⟩
  | 94 => ⟨S_, .f32⟩
  | 95 => ⟨S32x5000, .f32⟩
  | 96 => ⟨S32x5000, .f32⟩
  | 97 => ⟨S_, .i32⟩
  | 98 => ⟨S32x5000, .i32⟩
  | 99 => ⟨S32x5000, .i1⟩
  | 100 => ⟨S_, .i32⟩
  | 101 => ⟨S32x5000, .i32⟩
  | 102 => ⟨S32x5000, .i32⟩
  | 103 => ⟨S32x5000, .i32⟩
  | 104 => ⟨S32x5000x1, .i32⟩
  | 105 => ⟨S1, .i32⟩
  | 106 => ⟨S_, .i32⟩
  | 107 => ⟨S32x5000x1, .i32⟩
  | 108 => ⟨S32x5000x1, .i1⟩
  | 109 => ⟨S1x1x1, .i32⟩
  | 110 => ⟨S32x5000x1, .i32⟩
  | 111 => ⟨S32x5000x1, .i1⟩
  | 112 => ⟨S32x5000x1, .i1⟩
  | 113 => ⟨S_, .i1⟩
  | 114 => ⟨S32x5000, .i1⟩
  | 115 => ⟨S32x5000, .f32⟩
  | 116 => ⟨S_, .f32⟩
  | 117 => ⟨S32x5000, .f32⟩
  | 118 => ⟨S32x5000, .f32⟩
  | 119 => ⟨S_, .i32⟩
  | 120 => ⟨S32x5000, .i32⟩
  | 121 => ⟨S32x5000, .i1⟩
  | 122 => ⟨S_, .i32⟩
  | 123 => ⟨S32x5000, .i32⟩
  | 124 => ⟨S32x5000, .i32⟩
  | 125 => ⟨S32x5000, .i32⟩
  | 126 => ⟨S32x5000x1, .i32⟩
  | 127 => ⟨S1, .i32⟩
  | _ => ⟨S32x1x512x1024, .f32⟩

abbrev hbmTy0_1 (i : Nat) : BufTy := match i % 128 with
  | 0 => ⟨S_, .i32⟩
  | 1 => ⟨S32x5000x1, .i32⟩
  | 2 => ⟨S32x5000x1, .i1⟩
  | 3 => ⟨S1x1x1, .i32⟩
  | 4 => ⟨S32x5000x1, .i32⟩
  | 5 => ⟨S32x5000x1, .i1⟩
  | 6 => ⟨S32x5000x1, .i1⟩
  | 7 => ⟨S_, .i1⟩
  | 8 => ⟨S32x5000, .i1⟩
  | 9 => ⟨S32x5000, .f32⟩
  | 10 => ⟨S_, .f32⟩
  | 11 => ⟨S32x5000, .f32⟩
  | 12 => ⟨S32x5000, .f32⟩
  | 13 => ⟨S_, .i32⟩
  | 14 => ⟨S_, .f32⟩
  | 15 => ⟨S32x5120, .f32⟩
  | 16 => ⟨S_, .i32⟩
  | 17 => ⟨S_, .f32⟩
  | 18 => ⟨S32x5120, .f32⟩
  | 19 => ⟨S_, .i32⟩
  | 20 => ⟨S_, .f32⟩
  | 21 => ⟨S32x5120, .f32⟩
  | 22 => ⟨S_, .i32⟩
  | 23 => ⟨S_, .f32⟩
  | 24 => ⟨S32x5120, .f32⟩
  | 25 => ⟨S_, .i32⟩
  | 26 => ⟨S_, .f32⟩
  | 27 => ⟨S32x5120, .f32⟩
  | 28 => ⟨S_, .i32⟩
  | 29 => ⟨S_, .f32⟩
  | 30 => ⟨S32x5120, .f32⟩
  | 31 => ⟨S32x1x5120, .f32⟩
  | 32 => ⟨S32x1x5120, .f32⟩
  | 33 => ⟨S32x1x5120, .f32⟩
  | 34 => ⟨S32x1x5120, .f32⟩
  | 35 => ⟨S32x1x5120, .f32⟩
  | 36 => ⟨S32x1x5120, .f32⟩
  | 37 => ⟨S32x1x128, .f32⟩
  | 38 => ⟨S32x1x1, .f32⟩
  | 39 => ⟨S32, .f32⟩
  | 40 => ⟨S_, .f32⟩
  | 41 => ⟨S_, .f32⟩
  | 42 => ⟨S32x1x1, .f32⟩
  | 43 => ⟨S32, .f32⟩
  | 44 => ⟨S_, .f32⟩
  | 45 => ⟨S_, .f32⟩
  | 46 => ⟨S32x1x1, .f32⟩
  | 47 => ⟨S32, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | _ => ⟨S32x1x512x1024, .f32⟩

abbrev hbmTy (i : Nat) : BufTy := match i / 128 with
  | 0 => hbmTy0_0 i
  | 1 => hbmTy0_1 i
  | _ => ⟨S32x1x512x1024, .f32⟩

abbrev bufTy : (tb : Table) → Fin (tcTables nBuf tb) → BufTy
  | .hbm, ⟨i, _⟩ => hbmTy i
  | .local _ .vmem, ⟨0, _⟩ => ⟨S1x1x5120, .f32⟩
  | .local _ .vmem, ⟨1, _⟩ => ⟨S1x1x5120, .f32⟩
  | .local _ .vmem, ⟨2, _⟩ => ⟨S1x1x5120, .f32⟩
  | .local _ .vmem, ⟨3, _⟩ => ⟨S1x1x5120, .f32⟩
  | .local _ .vmem, ⟨4, _⟩ => ⟨S1x1x5120, .f32⟩
  | .local _ .vmem, ⟨5, _⟩ => ⟨S1x1x5120, .f32⟩
  | .local _ .vmem, ⟨6, _⟩ => ⟨S1x1x5120, .f32⟩
  | .local _ .vmem, ⟨7, _⟩ => ⟨S1x1x5120, .f32⟩
  | .local _ .vmem, ⟨8, _⟩ => ⟨S1x1x5120, .f32⟩
  | .local _ .vmem, ⟨9, _⟩ => ⟨S1x1x5120, .f32⟩
  | .local _ .vmem, ⟨10, _⟩ => ⟨S1x1x5120, .f32⟩
  | .local _ .vmem, ⟨11, _⟩ => ⟨S1x1x5120, .f32⟩
  | .local _ .vmem, ⟨12, _⟩ => ⟨S1x1x128, .f32⟩
  | .local _ .vmem, ⟨13, _⟩ => ⟨S1x1x128, .f32⟩
  | _, _ => ⟨S32x1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v4 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v5 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_cst : Ref sig .tc := ⟨.hbm, 72, rfl⟩
abbrev main_call2_v14 : Ref sig .tc := ⟨.hbm, 73, rfl⟩
abbrev main_v6 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_cst : Ref sig .tc := ⟨.hbm, 94, rfl⟩
abbrev main_call3_v14 : Ref sig .tc := ⟨.hbm, 95, rfl⟩
abbrev main_v7 : Ref sig .tc := ⟨.hbm, 96, rfl⟩
abbrev main_call4_c : Ref sig .tc := ⟨.hbm, 97, rfl⟩
abbrev main_call4_v0 : Ref sig .tc := ⟨.hbm, 98, rfl⟩
abbrev main_call4_v1 : Ref sig .tc := ⟨.hbm, 99, rfl⟩
abbrev main_call4_c_0 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_v5 : Ref sig .tc := ⟨.hbm, 104, rfl⟩
abbrev main_call4_c_1 : Ref sig .tc := ⟨.hbm, 105, rfl⟩
abbrev main_call4_c_2 : Ref sig .tc := ⟨.hbm, 106, rfl⟩
abbrev main_call4_v6 : Ref sig .tc := ⟨.hbm, 107, rfl⟩
abbrev main_call4_v7 : Ref sig .tc := ⟨.hbm, 108, rfl⟩
abbrev main_call4_v8 : Ref sig .tc := ⟨.hbm, 109, rfl⟩
abbrev main_call4_v9 : Ref sig .tc := ⟨.hbm, 110, rfl⟩
abbrev main_call4_v10 : Ref sig .tc := ⟨.hbm, 111, rfl⟩
abbrev main_call4_v11 : Ref sig .tc := ⟨.hbm, 112, rfl⟩
abbrev main_call4_c_3 : Ref sig .tc := ⟨.hbm, 113, rfl⟩
abbrev main_call4_v12 : Ref sig .tc := ⟨.hbm, 114, rfl⟩
abbrev main_call4_v13 : Ref sig .tc := ⟨.hbm, 115, rfl⟩
abbrev main_call4_cst : Ref sig .tc := ⟨.hbm, 116, rfl⟩
abbrev main_call4_v14 : Ref sig .tc := ⟨.hbm, 117, rfl⟩
abbrev main_v8 : Ref sig .tc := ⟨.hbm, 118, rfl⟩
abbrev main_call5_c : Ref sig .tc := ⟨.hbm, 119, rfl⟩
abbrev main_call5_v0 : Ref sig .tc := ⟨.hbm, 120, rfl⟩
abbrev main_call5_v1 : Ref sig .tc := ⟨.hbm, 121, rfl⟩
abbrev main_call5_c_0 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_call5_v5 : Ref sig .tc := ⟨.hbm, 126, rfl⟩
abbrev main_call5_c_1 : Ref sig .tc := ⟨.hbm, 127, rfl⟩
abbrev main_call5_c_2 : Ref sig .tc := ⟨.hbm, 128, rfl⟩
abbrev main_call5_v6 : Ref sig .tc := ⟨.hbm, 129, rfl⟩
abbrev main_call5_v7 : Ref sig .tc := ⟨.hbm, 130, rfl⟩
abbrev main_call5_v8 : Ref sig .tc := ⟨.hbm, 131, rfl⟩
abbrev main_call5_v9 : Ref sig .tc := ⟨.hbm, 132, rfl⟩
abbrev main_call5_v10 : Ref sig .tc := ⟨.hbm, 133, rfl⟩
abbrev main_call5_v11 : Ref sig .tc := ⟨.hbm, 134, rfl⟩
abbrev main_call5_c_3 : Ref sig .tc := ⟨.hbm, 135, rfl⟩
abbrev main_call5_v12 : Ref sig .tc := ⟨.hbm, 136, rfl⟩
abbrev main_call5_v13 : Ref sig .tc := ⟨.hbm, 137, rfl⟩
abbrev main_call5_cst : Ref sig .tc := ⟨.hbm, 138, rfl⟩
abbrev main_call5_v14 : Ref sig .tc := ⟨.hbm, 139, rfl⟩
abbrev main_v9 : Ref sig .tc := ⟨.hbm, 140, rfl⟩
abbrev main_c : Ref sig .tc := ⟨.hbm, 141, rfl⟩
abbrev main_call6_v0 : Ref sig .tc := ⟨.hbm, 142, rfl⟩
abbrev main_v10 : Ref sig .tc := ⟨.hbm, 143, rfl⟩
abbrev main_c_0 : Ref sig .tc := ⟨.hbm, 144, rfl⟩
abbrev main_call7_v0 : Ref sig .tc := ⟨.hbm, 145, rfl⟩
abbrev main_v11 : Ref sig .tc := ⟨.hbm, 146, rfl⟩
abbrev main_c_1 : Ref sig .tc := ⟨.hbm, 147, rfl⟩
abbrev main_call8_v0 : Ref sig .tc := ⟨.hbm, 148, rfl⟩
abbrev main_v12 : Ref sig .tc := ⟨.hbm, 149, rfl⟩
abbrev main_c_2 : Ref sig .tc := ⟨.hbm, 150, rfl⟩
abbrev main_call9_v0 : Ref sig .tc := ⟨.hbm, 151, rfl⟩
abbrev main_v13 : Ref sig .tc := ⟨.hbm, 152, rfl⟩
abbrev main_c_3 : Ref sig .tc := ⟨.hbm, 153, rfl⟩
abbrev main_call10_v0 : Ref sig .tc := ⟨.hbm, 154, rfl⟩
abbrev main_v14 : Ref sig .tc := ⟨.hbm, 155, rfl⟩
abbrev main_c_4 : Ref sig .tc := ⟨.hbm, 156, rfl⟩
abbrev main_call11_v0 : Ref sig .tc := ⟨.hbm, 157, rfl⟩
abbrev main_v15 : Ref sig .tc := ⟨.hbm, 158, rfl⟩
abbrev main_v16 : Ref sig .tc := ⟨.hbm, 159, rfl⟩
abbrev main_v17 : Ref sig .tc := ⟨.hbm, 160, rfl⟩
abbrev main_v18 : Ref sig .tc := ⟨.hbm, 161, rfl⟩
abbrev main_v19 : Ref sig .tc := ⟨.hbm, 162, rfl⟩
abbrev main_v20 : Ref sig .tc := ⟨.hbm, 163, rfl⟩
abbrev main_v21 : Ref sig .tc := ⟨.hbm, 164, rfl⟩
abbrev main_v22 : Ref sig .tc := ⟨.hbm, 165, rfl⟩
abbrev main_v23 : Ref sig .tc := ⟨.hbm, 166, rfl⟩
abbrev main_v24 : Ref sig .tc := ⟨.hbm, 167, rfl⟩
abbrev main_cst : Ref sig .tc := ⟨.hbm, 168, rfl⟩
abbrev main_v25 : Ref sig .tc := ⟨.hbm, 169, rfl⟩
abbrev main_v26 : Ref sig .tc := ⟨.hbm, 170, rfl⟩
abbrev main_v27 : Ref sig .tc := ⟨.hbm, 171, rfl⟩
abbrev main_cst_5 : Ref sig .tc := ⟨.hbm, 172, rfl⟩
abbrev main_v28 : Ref sig .tc := ⟨.hbm, 173, rfl⟩
abbrev main_v29 : Ref sig .tc := ⟨.hbm, 174, rfl⟩
abbrev main_v30 : Ref sig .tc := ⟨.hbm, 175, rfl⟩
abbrev main_cst_6 : Ref sig .tc := ⟨.hbm, 176, rfl⟩
abbrev main_v31 : Ref sig .tc := ⟨.hbm, 177, rfl⟩
abbrev main_cst_7 : Ref sig .tc := ⟨.hbm, 178, rfl⟩
abbrev main_v32 : Ref sig .tc := ⟨.hbm, 179, rfl⟩
abbrev main_v33 : Ref sig .tc := ⟨.hbm, 180, rfl⟩
abbrev main_cst_8 : Ref sig .tc := ⟨.hbm, 181, rfl⟩
abbrev main_v34 : Ref sig .tc := ⟨.hbm, 182, rfl⟩
abbrev main_v35 : Ref sig .tc := ⟨.hbm, 183, rfl⟩
abbrev main_cst_9 : Ref sig .tc := ⟨.hbm, 184, rfl⟩
abbrev main_v36 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32x1x512x1024_S32x524288 : S32x1x512x1024.ShapeCasts S32x524288
  bcast_S_S32x5000 : S_.BroadcastsInDim S32x5000 (![] : Fin 0 → Fin S32x5000.rank)
  shapeCasts_S32x5000_S32x5000x1 : S32x5000.ShapeCasts S32x5000x1
  bcast_S_S32x5000x1 : S_.BroadcastsInDim S32x5000x1 (![] : Fin 0 → Fin S32x5000x1.rank)
  bcast_S1_S1x1x1_2 : S1.BroadcastsInDim S1x1x1 (![2] : Fin 1 → Fin S1x1x1.rank)
  bcast_S1x1x1_S32x5000x1_0_1_2 : S1x1x1.BroadcastsInDim S32x5000x1 (![0, 1, 2] : Fin 3 → Fin S32x5000x1.rank)
  reducesTo_S32x5000x1_S32x5000_d2 : S32x5000x1.ReducesTo [2] S32x5000
  h_S_ : 0 < S_.numel
  pads_S32x5000_S32x5120_000_01200 : S32x5000.Pads (![0, 0] : Fin 2 → Nat) ![0, 120] ![0, 0] S32x5120
  shapeCasts_S32x5120_S32x1x5120 : S32x5120.ShapeCasts S32x1x5120
  inb_S1x1x5120_S1x1x5120_0_0_0 : ∀ a, (![0, 0, 0] : Fin 3 → Nat) a + S1x1x5120.size a ≤ S1x1x5120.size a
  h_S1x1x5120 : 0 < S1x1x5120.numel
  shapeCasts_S1x1x5120_S5120 : S1x1x5120.ShapeCasts S5120
  shapeCasts_S5120_S1x5120 : S5120.ShapeCasts S1x5120
  reduces_S1x5120_S1 : S1x5120.Reduces [1] S1
  shapeCasts_S1_S1x1 : S1.ShapeCasts S1x1
  inpos_S1x1_p0_0 : ∀ a, (![0, 0] : Fin 2 → Nat) a < S1x1.size a
  iota_S1x128_d1_w32 : S1x128.Iotas .tc 32 [1]
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S32x1x128_S32x1x1_0_0_0 : S32x1x128.Slices ![0, 0, 0] S32x1x1
  shapeCasts_S32x1x1_S32 : S32x1x1.ShapeCasts S32
  reducesTo_S32_S_d0 : S32.ReducesTo [0] S_
  slices_S32x1x128_S32x1x1_0_0_1 : S32x1x128.Slices ![0, 0, 1] S32x1x1
  slices_S32x1x128_S32x1x1_0_0_2 : S32x1x128.Slices ![0, 0, 2] S32x1x1
  gather_S32x524288_S32x5000x1_S32x5000_n_1_0_0_1_2_11_wf : GatherDims.WF S32x524288 S32x5000x1 S32x5000 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x5120.size a ≤ S32x1x5120.size a
  hwx0_0 : ∀ i : grid0.Coords, EltTy.bits .f32 = 32 ∨ (Rect.block (s := S32x1x5120) S1x1x5120.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x5120.size a ≤ S32x1x5120.size a
  hwx0_1 : ∀ i : grid0.Coords, EltTy.bits .f32 = 32 ∨ (Rect.block (s := S32x1x5120) S1x1x5120.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x5120.size a ≤ S32x1x5120.size a
  hwx0_2 : ∀ i : grid0.Coords, EltTy.bits .f32 = 32 ∨ (Rect.block (s := S32x1x5120) S1x1x5120.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x5120.size a ≤ S32x1x5120.size a
  hwx0_3 : ∀ i : grid0.Coords, EltTy.bits .f32 = 32 ∨ (Rect.block (s := S32x1x5120) S1x1x5120.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x5120.size a ≤ S32x1x5120.size a
  hwx0_4 : ∀ i : grid0.Coords, EltTy.bits .f32 = 32 ∨ (Rect.block (s := S32x1x5120) S1x1x5120.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x5120.size a ≤ S32x1x5120.size a
  hwx0_5 : ∀ i : grid0.Coords, EltTy.bits .f32 = 32 ∨ (Rect.block (s := S32x1x5120) S1x1x5120.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S32x1x128.size a
  hwx0_6 : ∀ i : grid0.Coords, EltTy.bits .f32 = 32 ∨ (Rect.block (s := S32x1x128) S1x1x128.size (cc0_transform_6 i) (hinb0_6 i)).WholeWords (EltTy.packing .f32)

variable [Facts₀]

def gather_S32x524288_S32x5000x1_S32x5000_n_1_0_0_1_2_11 : GatherDims S32x524288 S32x5000x1 S32x5000 where
  offsetDims := []
  collapsedSliceDims := [1]
  operandBatchingDims := [0]
  startIndicesBatchingDims := [0]
  startIndexMap := [1]
  indexVectorDim := 2
  sliceSizes := ![1, 1]
  wf := gather_S32x524288_S32x5000x1_S32x5000_n_1_0_0_1_2_11_wf

abbrev win0_0 : Pipeline.Window sig grid0 :=
  Pipeline.Window.ofSpec (Memref.whole main_v16) S1x1x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x1x5120.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1x5120.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1x5120.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1x5120.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x1x5120.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x1x512x1024 : Shape := ⟨4, ![32, 1, 512, 1024]⟩
abbrev S32x5000 : Shape := ⟨2, ![32, 5000]⟩
abbrev S32x524288 : Shape := ⟨2, ![32, 524288]⟩
abbrev S_ : Shape := ⟨0, ![]⟩
abbrev S32x5000x1 : Shape := ⟨3, ![32, 5000, 1]⟩
abbrev S1 : Shape := ⟨1, ![1]⟩
abbrev S1x1x1 : Shape := ⟨3, ![1, 1, 1]⟩

abbrev nBuf : Space → Nat
  | .hbm => 200
  | .vmem => 0
  | .smem => 0
  | _ => 0

abbrev hbmTy0_0 (i : Nat) : BufTy := match i % 128 with
  | 0 => ⟨S32x1x512x1024, .f32⟩
  | 1 => ⟨S32x1x512x1024, .f32⟩
  | 2 => ⟨S32x1x512x1024, .i1⟩
  | 3 => ⟨S32x5000, .i32⟩
  | 4 => ⟨S32x5000, .i32⟩
  | 5 => ⟨S32x524288, .f32⟩
  | 6 => ⟨S32x524288, .f32⟩
  | 7 => ⟨S32x524288, .i1⟩
  | 8 => ⟨S_, .i32⟩
  | 9 => ⟨S32x5000, .i32⟩
  | 10 => ⟨S32x5000, .i1⟩
  | 11 => ⟨S_, .i32⟩
  | 12 => ⟨S32x5000, .i32⟩
  | 13 => ⟨S32x5000, .i32⟩
  | 14 => ⟨S32x5000, .i32⟩
  | 15 => ⟨S32x5000x1, .i32⟩
  | 16 => ⟨S1, .i32⟩
  | 17 => ⟨S_, .i32⟩
  | 18 => ⟨S32x5000x1, .i32⟩
  | 19 => ⟨S32x5000x1, .i1⟩
  | 20 => ⟨S1x1x1, .i32⟩
  | 21 => ⟨S32x5000x1, .i32⟩
  | 22 => ⟨S32x5000x1, .i1⟩
  | 23 => ⟨S32x5000x1, .i1⟩
  | 24 => ⟨S_, .i1⟩
  | 25 => ⟨S32x5000, .i1⟩
  | 26 => ⟨S32x5000, .f32⟩
  | 27 => ⟨S_, .f32⟩
  | 28 => ⟨S32x5000, .f32⟩
  | 29 => ⟨S32x5000, .f32⟩
  | 30 => ⟨S_, .i32⟩
  | 31 => ⟨S32x5000, .i32⟩
  | 32 => ⟨S32x5000, .i1⟩
  | 33 => ⟨S_, .i32⟩
  | 34 => ⟨S32x5000, .i32⟩
  | 35 => ⟨S32x5000, .i32⟩
  | 36 => ⟨S32x5000, .i32⟩
  | 37 => ⟨S32x5000x1, .i32⟩
  | 38 => ⟨S1, .i32⟩
  | 39 => ⟨S_, .i32⟩
  | 40 => ⟨S32x5000x1, .i32⟩
  | 41 => ⟨S32x5000x1, .i1⟩
  | 42 => ⟨S1x1x1, .i32⟩
  | 43 => ⟨S32x5000x1, .i32⟩
  | 44 => ⟨S32x5000x1, .i1⟩
  | 45 => ⟨S32x5000x1, .i1⟩
  | 46 => ⟨S_, .i1⟩
  | 47 => ⟨S32x5000, .i1⟩
  | 48 => ⟨S32x5000, .f32⟩
  | 49 => ⟨S_, .f32⟩
  | 50 => ⟨S32x5000, .f32⟩
  | 51 => ⟨S32x5000, .f32⟩
  | 52 => ⟨S_, .i32⟩
  | 53 => ⟨S32x5000, .i32⟩
  | 54 => ⟨S32x5000, .i1⟩
  | 55 => ⟨S_, .i32⟩
  | 56 => ⟨S32x5000, .i32⟩
  | 57 => ⟨S32x5000, .i32⟩
  | 58 => ⟨S32x5000, .i32⟩
  | 59 => ⟨S32x5000x1, .i32⟩
  | 60 => ⟨S1, .i32⟩
  | 61 => ⟨S_, .i32⟩
  | 62 => ⟨S32x5000x1, .i32⟩
  | 63 => ⟨S32x5000x1, .i1⟩
  | 64 => ⟨S1x1x1, .i32⟩
  | 65 => ⟨S32x5000x1, .i32⟩
  | 66 => ⟨S32x5000x1, .i1⟩
  | 67 => ⟨S32x5000x1, .i1⟩
  | 68 => ⟨S_, .i1⟩
  | 69 => ⟨S32x5000, .i1⟩
  | 70 => ⟨S32x5000, .f32⟩
  | 71 => ⟨S_, .f32⟩
  | 72 => ⟨S32x5000, .f32⟩
  | 73 => ⟨S32x5000, .f32⟩
  | 74 => ⟨S_, .i32⟩
  | 75 => ⟨S32x5000, .i32⟩
  | 76 => ⟨S32x5000, .i1⟩
  | 77 => ⟨S_, .i32⟩
  | 78 => ⟨S32x5000, .i32⟩
  | 79 => ⟨S32x5000, .i32⟩
  | 80 => ⟨S32x5000, .i32⟩
  | 81 => ⟨S32x5000x1, .i32⟩
  | 82 => ⟨S1, .i32⟩
  | 83 => ⟨S_, .i32⟩
  | 84 => ⟨S32x5000x1, .i32⟩
  | 85 => ⟨S32x5000x1, .i1⟩
  | 86 => ⟨S1x1x1, .i32⟩
  | 87 => ⟨S32x5000x1, .i32⟩
  | 88 => ⟨S32x5000x1, .i1⟩
  | 89 => ⟨S32x5000x1, .i1⟩
  | 90 => ⟨S_, .i1⟩
  | 91 => ⟨S32x5000, .i1⟩
  | 92 => ⟨S32x5000, .f32⟩
  | 93 => ⟨S_, .f32⟩
  | 94 => ⟨S32x5000, .f32⟩
  | 95 => ⟨S32x5000, .f32⟩
  | 96 => ⟨S_, .i32⟩
  | 97 => ⟨S32x5000, .i32⟩
  | 98 => ⟨S32x5000, .i1⟩
  | 99 => ⟨S_, .i32⟩
  | 100 => ⟨S32x5000, .i32⟩
  | 101 => ⟨S32x5000, .i32⟩
  | 102 => ⟨S32x5000, .i32⟩
  | 103 => ⟨S32x5000x1, .i32⟩
  | 104 => ⟨S1, .i32⟩
  | 105 => ⟨S_, .i32⟩
  | 106 => ⟨S32x5000x1, .i32⟩
  | 107 => ⟨S32x5000x1, .i1⟩
  | 108 => ⟨S1x1x1, .i32⟩
  | 109 => ⟨S32x5000x1, .i32⟩
  | 110 => ⟨S32x5000x1, .i1⟩
  | 111 => ⟨S32x5000x1, .i1⟩
  | 112 => ⟨S_, .i1⟩
  | 113 => ⟨S32x5000, .i1⟩
  | 114 => ⟨S32x5000, .i1⟩
  | 115 => ⟨S_, .i1⟩
  | 116 => ⟨S32x5000, .i1⟩
  | 117 => ⟨S32x5000, .i1⟩
  | 118 => ⟨S_, .i32⟩
  | 119 => ⟨S32x5000, .i32⟩
  | 120 => ⟨S32x5000, .i1⟩
  | 121 => ⟨S_, .i32⟩
  | 122 => ⟨S32x5000, .i32⟩
  | 123 => ⟨S32x5000, .i32⟩
  | 124 => ⟨S32x5000, .i32⟩
  | 125 => ⟨S32x5000x1, .i32⟩
  | 126 => ⟨S1, .i32⟩
  | 127 => ⟨S_, .i32⟩
  | _ => ⟨S32x1x512x1024, .f32⟩

abbrev hbmTy0_1 (i : Nat) : BufTy := match i % 128 with
  | 0 => ⟨S32x5000x1, .i32⟩
  | 1 => ⟨S32x5000x1, .i1⟩
  | 2 => ⟨S1x1x1, .i32⟩
  | 3 => ⟨S32x5000x1, .i32⟩
  | 4 => ⟨S32x5000x1, .i1⟩
  | 5 => ⟨S32x5000x1, .i1⟩
  | 6 => ⟨S_, .i1⟩
  | 7 => ⟨S32x5000, .i1⟩
  | 8 => ⟨S32x5000, .i1⟩
  | 9 => ⟨S_, .i1⟩
  | 10 => ⟨S32x5000, .i1⟩
  | 11 => ⟨S32x5000, .i1⟩
  | 12 => ⟨S_, .f32⟩
  | 13 => ⟨S32x5000, .f32⟩
  | 14 => ⟨S32x5000, .f32⟩
  | 15 => ⟨S32x5000, .f32⟩
  | 16 => ⟨S_, .f32⟩
  | 17 => ⟨S32x5000, .f32⟩
  | 18 => ⟨S32x5000, .i1⟩
  | 19 => ⟨S_, .f32⟩
  | 20 => ⟨S32x5000, .f32⟩
  | 21 => ⟨S32x5000, .i1⟩
  | 22 => ⟨S32x5000, .i1⟩
  | 23 => ⟨S_, .f32⟩
  | 24 => ⟨S32x5000, .f32⟩
  | 25 => ⟨S32x5000, .i1⟩
  | 26 => ⟨S_, .f32⟩
  | 27 => ⟨S32x5000, .f32⟩
  | 28 => ⟨S32x5000, .i1⟩
  | 29 => ⟨S_, .f32⟩
  | 30 => ⟨S_, .f32⟩
  | 31 => ⟨S32x5000, .f32⟩
  | 32 => ⟨S32x5000, .f32⟩
  | 33 => ⟨S32x5000, .f32⟩
  | 34 => ⟨S_, .f32⟩
  | 35 => ⟨S32x5000, .f32⟩
  | 36 => ⟨S32x5000, .f32⟩
  | 37 => ⟨S32x5000, .f32⟩
  | 38 => ⟨S32x5000, .i1⟩
  | 39 => ⟨S32x5000, .i1⟩
  | 40 => ⟨S32x5000, .i1⟩
  | 41 => ⟨S32x5000, .i1⟩
  | 42 => ⟨S32x5000, .f32⟩
  | 43 => ⟨S32x5000, .f32⟩
  | 44 => ⟨S_, .f32⟩
  | 45 => ⟨S_, .f32⟩
  | 46 => ⟨S32x5000, .f32⟩
  | 47 => ⟨S32x5000, .f32⟩
  | 48 => ⟨S_, .f32⟩
  | 49 => ⟨S_, .f32⟩
  | 50 => ⟨S32x5000, .f32⟩
  | 51 => ⟨S32x5000, .f32⟩
  | 52 => ⟨S32x5000, .f32⟩
  | 53 => ⟨S32x5000, .f32⟩
  | 54 => ⟨S_, .f32⟩
  | 55 => ⟨S_, .f32⟩
  | 56 => ⟨S32x5000, .f32⟩
  | 57 => ⟨S32x5000, .f32⟩
  | 58 => ⟨S_, .f32⟩
  | 59 => ⟨S_, .f32⟩
  | 60 => ⟨S32x5000, .i32⟩
  | 61 => ⟨S_, .i32⟩
  | 62 => ⟨S_, .i32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | _ => ⟨S32x1x512x1024, .f32⟩

abbrev hbmTy (i : Nat) : BufTy := match i / 128 with
  | 0 => hbmTy0_0 i
  | 1 => hbmTy0_1 i
  | _ => ⟨S32x1x512x1024, .f32⟩

abbrev bufTy : (tb : Table) → Fin (tcTables nBuf tb) → BufTy
  | .hbm, ⟨i, _⟩ => hbmTy i
  | _, _ => ⟨S32x1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v3 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v4 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v5 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_cst : Ref sig .tc := ⟨.hbm, 93, rfl⟩
abbrev main_call3_v14 : Ref sig .tc := ⟨.hbm, 94, rfl⟩
abbrev main_v6 : Ref sig .tc := ⟨.hbm, 95, rfl⟩
abbrev main_call4_c : Ref sig .tc := ⟨.hbm, 96, rfl⟩
abbrev main_call4_v0 : Ref sig .tc := ⟨.hbm, 97, rfl⟩
abbrev main_call4_v1 : Ref sig .tc := ⟨.hbm, 98, rfl⟩
abbrev main_call4_c_0 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_c_1 : Ref sig .tc := ⟨.hbm, 104, rfl⟩
abbrev main_call4_c_2 : Ref sig .tc := ⟨.hbm, 105, rfl⟩
abbrev main_call4_v6 : Ref sig .tc := ⟨.hbm, 106, rfl⟩
abbrev main_call4_v7 : Ref sig .tc := ⟨.hbm, 107, rfl⟩
abbrev main_call4_v8 : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_c_3 : Ref sig .tc := ⟨.hbm, 112, rfl⟩
abbrev main_call4_v12 : Ref sig .tc := ⟨.hbm, 113, rfl⟩
abbrev main_call4_v13 : Ref sig .tc := ⟨.hbm, 114, rfl⟩
abbrev main_call4_c_4 : Ref sig .tc := ⟨.hbm, 115, rfl⟩
abbrev main_call4_v14 : Ref sig .tc := ⟨.hbm, 116, rfl⟩
abbrev main_v7 : Ref sig .tc := ⟨.hbm, 117, rfl⟩
abbrev main_call5_c : Ref sig .tc := ⟨.hbm, 118, rfl⟩
abbrev main_call5_v0 : Ref sig .tc := ⟨.hbm, 119, rfl⟩
abbrev main_call5_v1 : Ref sig .tc := ⟨.hbm, 120, rfl⟩
abbrev main_call5_c_0 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_v5 : Ref sig .tc := ⟨.hbm, 125, rfl⟩
abbrev main_call5_c_1 : Ref sig .tc := ⟨.hbm, 126, rfl⟩
abbrev main_call5_c_2 : Ref sig .tc := ⟨.hbm, 127, rfl⟩
abbrev main_call5_v6 : Ref sig .tc := ⟨.hbm, 128, rfl⟩
abbrev main_call5_v7 : Ref sig .tc := ⟨.hbm, 129, rfl⟩
abbrev main_call5_v8 : Ref sig .tc := ⟨.hbm, 130, rfl⟩
abbrev main_call5_v9 : Ref sig .tc := ⟨.hbm, 131, rfl⟩
abbrev main_call5_v10 : Ref sig .tc := ⟨.hbm, 132, rfl⟩
abbrev main_call5_v11 : Ref sig .tc := ⟨.hbm, 133, rfl⟩
abbrev main_call5_c_3 : Ref sig .tc := ⟨.hbm, 134, rfl⟩
abbrev main_call5_v12 : Ref sig .tc := ⟨.hbm, 135, rfl⟩
abbrev main_call5_v13 : Ref sig .tc := ⟨.hbm, 136, rfl⟩
abbrev main_call5_c_4 : Ref sig .tc := ⟨.hbm, 137, rfl⟩
abbrev main_call5_v14 : Ref sig .tc := ⟨.hbm, 138, rfl⟩
abbrev main_v8 : Ref sig .tc := ⟨.hbm, 139, rfl⟩
abbrev main_cst : Ref sig .tc := ⟨.hbm, 140, rfl⟩
abbrev main_v9 : Ref sig .tc := ⟨.hbm, 141, rfl⟩
abbrev main_v10 : Ref sig .tc := ⟨.hbm, 142, rfl⟩
abbrev main_v11 : Ref sig .tc := ⟨.hbm, 143, rfl⟩
abbrev main_cst_0 : Ref sig .tc := ⟨.hbm, 144, rfl⟩
abbrev main_v12 : Ref sig .tc := ⟨.hbm, 145, rfl⟩
abbrev main_v13 : Ref sig .tc := ⟨.hbm, 146, rfl⟩
abbrev main_cst_1 : Ref sig .tc := ⟨.hbm, 147, rfl⟩
abbrev main_v14 : Ref sig .tc := ⟨.hbm, 148, rfl⟩
abbrev main_v15 : Ref sig .tc := ⟨.hbm, 149, rfl⟩
abbrev main_v16 : Ref sig .tc := ⟨.hbm, 150, rfl⟩
abbrev main_cst_2 : Ref sig .tc := ⟨.hbm, 151, rfl⟩
abbrev main_v17 : Ref sig .tc := ⟨.hbm, 152, rfl⟩
abbrev main_v18 : Ref sig .tc := ⟨.hbm, 153, rfl⟩
abbrev main_cst_3 : Ref sig .tc := ⟨.hbm, 154, rfl⟩
abbrev main_v19 : Ref sig .tc := ⟨.hbm, 155, rfl⟩
abbrev main_v20 : Ref sig .tc := ⟨.hbm, 156, rfl⟩
abbrev main_cst_4 : Ref sig .tc := ⟨.hbm, 157, rfl⟩
abbrev main_cst_5 : Ref sig .tc := ⟨.hbm, 158, rfl⟩
abbrev main_call6_v0 : Ref sig .tc := ⟨.hbm, 159, rfl⟩
abbrev main_call6_v1 : Ref sig .tc := ⟨.hbm, 160, rfl⟩
abbrev main_v21 : Ref sig .tc := ⟨.hbm, 161, rfl⟩
abbrev main_cst_6 : Ref sig .tc := ⟨.hbm, 162, rfl⟩
abbrev main_call7_v0 : Ref sig .tc := ⟨.hbm, 163, rfl⟩
abbrev main_v22 : Ref sig .tc := ⟨.hbm, 164, rfl⟩
abbrev main_v23 : Ref sig .tc := ⟨.hbm, 165, rfl⟩
abbrev main_v24 : Ref sig .tc := ⟨.hbm, 166, rfl⟩
abbrev main_v25 : Ref sig .tc := ⟨.hbm, 167, rfl⟩
abbrev main_v26 : Ref sig .tc := ⟨.hbm, 168, rfl⟩
abbrev main_v27 : Ref sig .tc := ⟨.hbm, 169, rfl⟩
abbrev main_v28 : Ref sig .tc := ⟨.hbm, 170, rfl⟩
abbrev main_v29 : Ref sig .tc := ⟨.hbm, 171, rfl⟩
abbrev main_cst_7 : Ref sig .tc := ⟨.hbm, 172, rfl⟩
abbrev main_call8_v0 : Ref sig .tc := ⟨.hbm, 173, rfl⟩
abbrev main_call8_v1 : Ref sig .tc := ⟨.hbm, 174, rfl⟩
abbrev main_v30 : Ref sig .tc := ⟨.hbm, 175, rfl⟩
abbrev main_cst_8 : Ref sig .tc := ⟨.hbm, 176, rfl⟩
abbrev main_v31 : Ref sig .tc := ⟨.hbm, 177, rfl⟩
abbrev main_v32 : Ref sig .tc := ⟨.hbm, 178, rfl⟩
abbrev main_v33 : Ref sig .tc := ⟨.hbm, 179, rfl⟩
abbrev main_v34 : Ref sig .tc := ⟨.hbm, 180, rfl⟩
abbrev main_v35 : Ref sig .tc := ⟨.hbm, 181, rfl⟩
abbrev main_cst_9 : Ref sig .tc := ⟨.hbm, 182, rfl⟩
abbrev main_call9_v0 : Ref sig .tc := ⟨.hbm, 183, rfl⟩
abbrev main_call9_v1 : Ref sig .tc := ⟨.hbm, 184, rfl⟩
abbrev main_v36 : Ref sig .tc := ⟨.hbm, 185, rfl⟩
abbrev main_cst_10 : Ref sig .tc := ⟨.hbm, 186, rfl⟩
abbrev main_v37 : Ref sig .tc := ⟨.hbm, 187, rfl⟩
abbrev main_v38 : Ref sig .tc := ⟨.hbm, 188, rfl⟩
abbrev main_c : Ref sig .tc := ⟨.hbm, 189, rfl⟩
abbrev main_v39 : Ref sig .tc := ⟨.hbm, 190, rfl⟩
abbrev main_v40 : Ref sig .tc := ⟨.hbm, 191, rfl⟩
abbrev main_cst_11 : Ref sig .tc := ⟨.hbm, 192, rfl⟩
abbrev main_v41 : Ref sig .tc := ⟨.hbm, 193, rfl⟩
abbrev main_v42 : Ref sig .tc := ⟨.hbm, 194, rfl⟩
abbrev main_cst_12 : Ref sig .tc := ⟨.hbm, 195, rfl⟩
abbrev main_v43 : Ref sig .tc := ⟨.hbm, 196, rfl⟩
abbrev main_v44 : Ref sig .tc := ⟨.hbm, 197, rfl⟩
abbrev main_cst_13 : Ref sig .tc := ⟨.hbm, 198, rfl⟩
abbrev main_v45 : Ref sig .tc := ⟨.hbm, 199, rfl⟩

abbrev nD : Nat := 1
abbrev τ : Topo := Topo.v7x

variable {F : FTy → Type} [FloatOps F]

class Facts₀ : Prop where
  shapeCasts_S32x1x512x1024_S32x524288 : S32x1x512x1024.ShapeCasts S32x524288
  bcast_S_S32x5000 : S_.BroadcastsInDim S32x5000 (![] : Fin 0 → Fin S32x5000.rank)
  shapeCasts_S32x5000_S32x5000x1 : S32x5000.ShapeCasts S32x5000x1
  bcast_S_S32x5000x1 : S_.BroadcastsInDim S32x5000x1 (![] : Fin 0 → Fin S32x5000x1.rank)
  bcast_S1_S1x1x1_2 : S1.BroadcastsInDim S1x1x1 (![2] : Fin 1 → Fin S1x1x1.rank)
  bcast_S1x1x1_S32x5000x1_0_1_2 : S1x1x1.BroadcastsInDim S32x5000x1 (![0, 1, 2] : Fin 3 → Fin S32x5000x1.rank)
  reducesTo_S32x5000x1_S32x5000_d2 : S32x5000x1.ReducesTo [2] S32x5000
  h_S_ : 0 < S_.numel
  reducesTo_S32x5000_S_d0_1 : S32x5000.ReducesTo [0, 1] S_
  natLt_1_32 : 1 < 32
  gather_S32x524288_S32x5000x1_S32x5000_n_1_0_0_1_2_11_wf : GatherDims.WF S32x524288 S32x5000x1 S32x5000 [] [1] [0] [1] [0] 2 ![1, 1]

variable [Facts₀]

def gather_S32x524288_S32x5000x1_S32x5000_n_1_0_0_1_2_11 : GatherDims S32x524288 S32x5000x1 S32x5000 where
  offsetDims := []
  collapsedSliceDims := [1]
  operandBatchingDims := [0]
  startIndicesBatchingDims := [0]
  startIndexMap := [1]
  indexVectorDim := 2
  sliceSizes := ![1, 1]
  wf := gather_S32x524288_S32x5000x1_S32x5000_n_1_0_0_1_2_11_wf

class Facts : Prop extends Facts₀ where

variable [Facts]
-- ==== Proof.Terms.lean ====
/-
  The ranking loss, pair by pair, over the extended reals.

  For one sampled pair the inputs are the two predictions iA, iB, the two depths tA, tB and one bit cm saying that
  both pixels are valid. With r = tA / (tB + ε): the pair is "equal" when lo < r < hi and then contributes
  (iA - iB)² to the equal loss; otherwise it carries the label +1 (r ≥ hi), -1 (r ≤ lo) or 0 and contributes
  log (1 + exp ((iB - iA) · label)) to the unequal loss; a valid pair adds 1 to the count. The loss is
  (1 · E + U) / (Cn + ε) · 1 of the three sums. The constants are the programs' own f32 words, never evaluated.

  Two ways of writing the unequal term meet here: log (1 + exp x) and max x 0 + log (1 + exp (-|x|)). They are the
  same extended real for EVERY x: at -∞ both are 0, at +∞ both are +∞, and for a real x it is
  log (1 + eˣ) = x + log (1 + e⁻ˣ) when x ≥ 0, read off log (eˣ · (1 + e⁻ˣ)).
-/
import Idealize.ShloMosaic.PureOps.Ideal
import Idealize.ShloMosaic.PureOps.Ideal.Laws
import Idealize.ShloMosaic.Lib.ValueIdx

noncomputable section

open scoped BigOperators

namespace Cert.RankLoss

open Idealize.ShloMosaic

/-! ## The shared literals -/

abbrev zeroC : EReal := Ideal.ofBits .f32 0x00000000#32
abbrev oneC : EReal := Ideal.ofBits .f32 0x3F800000#32
abbrev negOneC : EReal := Ideal.ofBits .f32 0xBF800000#32
abbrev halfC : EReal := Ideal.ofBits .f32 0x3F000000#32
abbrev epsC : EReal := Ideal.ofBits .f32 0x358637BD#32
abbrev hiC : EReal := Ideal.ofBits .f32 0x3F83D70A#32
abbrev loC : EReal := Ideal.ofBits .f32 0x3F788B2F#32

theorem zeroC_eq : zeroC = 0 := Ideal.ofBits_zero_f32

/-- The word 0x3F000000 is one half. -/
theorem halfC_eq : halfC = ((1 / 2 : ℝ) : EReal) := by
  simp [Ideal.ofBits, Ideal.ieee, -EReal.coe_mul]; norm_num

/-! ## One pair -/

/-- The depth ratio tA / (tB + ε). -/
def ratio (tA tB : EReal) : EReal := Ideal.div tA (tB + epsC)

/-- The pair is "equal": lo < ratio < hi. -/
def isEq (tA tB : EReal) : BitVec 1 :=
  IntOp.andi (Ideal.cmp .olt (ratio tA tB) hiC) (Ideal.cmp .ogt (ratio tA tB) loC)

/-- The ordinal label: +1 at or above hi, -1 at or below lo, 0 between. -/
def label (tA tB : EReal) : EReal :=
  Scalar.select (Ideal.cmp .oge (ratio tA tB) hiC) oneC
    (Scalar.select (Ideal.cmp .ole (ratio tA tB) loC) negOneC zeroC)

/-- The equal-loss term of a pair: (iA - iB)² when the pair is equal and valid. -/
def eqTerm (iA iB tA tB : EReal) (cm : BitVec 1) : EReal :=
  Scalar.select (IntOp.andi (isEq tA tB) cm) ((iA - iB) * (iA - iB)) zeroC

/-- The signed margin (iB - iA) · label. -/
def margin (iA iB tA tB : EReal) : EReal := (iB - iA) * label tA tB

/-- The unequal-loss term as log (1 + exp margin), the "not equal" bit a complement. -/
def uneqTerm (iA iB tA tB : EReal) (cm : BitVec 1) : EReal :=
  Scalar.select (IntOp.andi (~~~ isEq tA tB) cm) (Ideal.log1p (Ideal.exp (margin iA iB tA tB))) zeroC

/-- The same term in the stable form max x 0 + log (1 + exp (0 - |x|)), the "not equal" bit an exclusive or with 1. -/
def uneqTermStable (iA iB tA tB : EReal) (cm : BitVec 1) : EReal :=
  Scalar.select (IntOp.andi (IntOp.xori (isEq tA tB) 1#1) cm)
    (max (margin iA iB tA tB) zeroC
      + Ideal.log1p (Ideal.exp (zeroC - max (margin iA iB tA tB) (-(margin iA iB tA tB))))) zeroC

/-- A valid pair counts 1. -/
def cntTerm (cm : BitVec 1) : EReal := Scalar.select cm oneC zeroC

/-- The loss of the three sums. -/
def loss (E U Cn : EReal) : EReal := Ideal.div (oneC * E + U) (Cn + epsC) * oneC

/-! ## The two spellings of the unequal term -/

theorem softplus_real (r : ℝ) : max r 0 + Real.log (1 + Real.exp (-|r|)) = Real.log (1 + Real.exp r) := by
  rcases le_total 0 r with h | h
  · rw [max_eq_left h, abs_of_nonneg h]
    have e : 1 + Real.exp r = Real.exp r * (1 + Real.exp (-r)) := by
      rw [mul_add, mul_one, ← Real.exp_add, add_neg_cancel, Real.exp_zero, add_comm]
    rw [e, Real.log_mul (Real.exp_pos r).ne' (by positivity), Real.log_exp]
  · rw [max_eq_right h, abs_of_nonpos h, neg_neg, zero_add]

/-- log (1 + 0) = 0. -/
private theorem log1p_zero : Ideal.log1p 0 = 0 := by
  have h : (1 : EReal) + 0 = ((1 : ℝ) : EReal) := by simp
  rw [Ideal.log1p, h, Ideal.log_coe]
  simp

/-- At a real r, log (1 + exp r) is the real logarithm of the positive real 1 + eʳ. -/
private theorem log1p_exp_coe (r : ℝ) :
    Ideal.log1p (Ideal.exp (r : EReal)) = ((Real.log (1 + Real.exp r) : ℝ) : EReal) := by
  have h : (1 : EReal) + ((Real.exp r : ℝ) : EReal) = ((1 + Real.exp r : ℝ) : EReal) := by
    rw [EReal.coe_add, EReal.coe_one]
  rw [Ideal.log1p, Ideal.exp_coe, h, Ideal.log_coe, if_neg (by have := Real.exp_pos r; linarith)]

/-- The inclusion of the reals is monotone, so it carries a maximum to the maximum. -/
private theorem coe_max' (a b : ℝ) : max (a : EReal) (b : EReal) = ((max a b : ℝ) : EReal) :=
  (EReal.coe_strictMono.monotone.map_max).symm

/-- log (1 + exp x) = max x 0 + log (1 + exp (0 - max x (-x))) at every extended real. -/
theorem softplus_eq (x : EReal) :
    max x zeroC + Ideal.log1p (Ideal.exp (zeroC - max x (-x))) = Ideal.log1p (Ideal.exp x) := by
  rw [zeroC_eq]
  induction x using EReal.rec with
  | bot =>
    -- max ⊥ 0 = 0; max ⊥ ⊤ = ⊤, 0 - ⊤ = ⊥, exp ⊥ = 0: both sides are log (1 + 0) = 0
    simp [log1p_zero]
  | top =>
    -- max ⊤ 0 = ⊤; 0 - ⊤ = ⊥, exp ⊥ = 0, so the left side is ⊤ + 0; the right side is log (1 + ⊤) = ⊤
    have h : (1 : EReal) + ⊤ = ⊤ := EReal.add_top_of_ne_bot (by decide)
    simp [log1p_zero]
    rw [Ideal.log1p, h, Ideal.log_top]
  | coe r =>
    -- everything is real: max r (-r) = |r|, and the identity is the real one
    have h1 : max (r : EReal) 0 = ((max r 0 : ℝ) : EReal) := by
      rw [← EReal.coe_zero, coe_max']
    have h2 : (0 : EReal) - max (r : EReal) (-(r : EReal)) = ((-|r| : ℝ) : EReal) := by
      rw [← EReal.coe_neg, coe_max', ← EReal.coe_zero, ← EReal.coe_sub, zero_sub, abs_eq_max_neg]
    rw [h1, h2, log1p_exp_coe, log1p_exp_coe, ← EReal.coe_add, softplus_real]

theorem xori_one_eq_not (b : BitVec 1) : IntOp.xori b 1#1 = ~~~ b := by
  revert b; decide

theorem uneqTermStable_eq (iA iB tA tB : EReal) (cm : BitVec 1) :
    uneqTermStable iA iB tA tB cm = uneqTerm iA iB tA tB cm := by
  unfold uneqTermStable uneqTerm
  rw [softplus_eq, xori_one_eq_not]

/-! ## A validity bit carried as a float -/

/-- "Greater than" is the strict order read from the right. -/
private theorem cmp_ogt (x y : EReal) : Ideal.cmp .ogt x y = BitVec.ofBool (decide (y < x)) := rfl

/-- A bit b carried as the float b (0 or 1) exceeds one half exactly when b is set. -/
theorem cmp_gt_half_bit (b : BitVec 1) : Ideal.cmp .ogt (((b.toNat : ℝ) : EReal)) halfC = b := by
  rw [halfC_eq]
  have hb : b = 0#1 ∨ b = 1#1 := by revert b; decide
  rcases hb with rfl | rfl
  · -- 1/2 < 0 fails
    have h : ¬ (((1 / 2 : ℝ) : EReal) < ((((0#1 : BitVec 1).toNat : ℝ)) : EReal)) := by
      rw [EReal.coe_lt_coe_iff]; norm_num
    rw [cmp_ogt, decide_eq_false h]; rfl
  · -- 1/2 < 1 holds
    have h : (((1 / 2 : ℝ) : EReal) < ((((1#1 : BitVec 1).toNat : ℝ)) : EReal)) := by
      rw [EReal.coe_lt_coe_iff]; norm_num
    rw [cmp_ogt, decide_eq_true h]; rfl

/-- The padding value, the integer 0 as a float, does not exceed one half. -/
theorem cmp_gt_half_pad : Ideal.cmp .ogt ((((0#32 : BitVec 32).toInt : ℝ) : EReal)) halfC = 0#1 := by
  rw [halfC_eq]
  have h : ¬ (((1 / 2 : ℝ) : EReal) < ((((0#32 : BitVec 32).toInt : ℝ)) : EReal)) := by
    rw [EReal.coe_lt_coe_iff, BitVec.toInt_zero]; norm_num
  rw [cmp_ogt, decide_eq_false h]; rfl

end Cert.RankLoss

end
-- ==== Proof.Take.lean ====
/-
  jnp.take_along_axis over the pixel axis, as both programs spell it.

  For an index array I of shape [32, 5000] into a table of shape [32, 524288]: negative entries are wrapped once
  (I + 524288), the wrapped entry is tested against 0 ≤ · ≤ 524287, the table is gathered at the wrapped entry, and
  where the test fails the gathered entry is replaced by a fill value. The fill depends on the table's element type —
  a NaN word for floats, true for bits — which is the one place the two programs differ: one gathers the validity
  mask as bits, the other gathers it as the floats 0 and 1 and compares with one half.

  When every entry of I lies in [-524288, 524288), the wrapped entry lies in [0, 524288), every test passes, and the
  fill is never used. The gather itself is never opened: it commutes with any entrywise map of the table because it
  reads the table at positions computed from the indices alone.
-/
import Idealize.ShloMosaic.PureOps
import Idealize.ShloMosaic.PureOps.Reduce
import Idealize.ShloMosaic.Lib.Affine
import Idealize.ShloMosaic.Lib.ValueIdx
import proofs.«401007_j64742337020663_4_alg».proof.Proof.Terms

noncomputable section

namespace Cert.RankLoss

open Idealize.ShloMosaic

abbrev Spair : Shape := ⟨2, ![32, 5000]⟩
abbrev Spair1 : Shape := ⟨3, ![32, 5000, 1]⟩
abbrev Stab : Shape := ⟨2, ![32, 524288]⟩
abbrev Sscal : Shape := ⟨0, ![]⟩
abbrev Sone : Shape := ⟨1, ![1]⟩
abbrev Sones : Shape := ⟨3, ![1, 1, 1]⟩

/-- Every index is in range of the pixel axis, jnp's single wrap of negative indices included. -/
def InRange (I : IVec Spair 32) : Prop := ∀ j, -524288 ≤ (I j).toInt ∧ (I j).toInt < 524288

section Take

variable (hb : Sscal.BroadcastsInDim Spair (![] : Fin 0 → Fin Spair.rank))
  (hsc : Spair.ShapeCasts Spair1)
  (hb1 : Sscal.BroadcastsInDim Spair1 (![] : Fin 0 → Fin Spair1.rank))
  (hb2 : Sone.BroadcastsInDim Sones (![2] : Fin 1 → Fin Sones.rank))
  (hb3 : Sones.BroadcastsInDim Spair1 (![0, 1, 2] : Fin 3 → Fin Spair1.rank))
  (hr : Spair1.ReducesTo [2] Spair) (h0 : 0 < Sscal.numel)

/-- The indices with negative entries wrapped, laid out as the gather's [32, 5000, 1] start indices. -/
def wrapIdx (I : IVec Spair 32) : IVec Spair1 32 :=
  shapeCast Spair1
    (select (cmpi .slt I (broadcastInDim Spair ![] hb (constantI Sscal 32 0#32)))
      (addi I (broadcastInDim Spair ![] hb (constantI Sscal 32 524288#32))) I) hsc

/-- The in-bounds flags 0 ≤ wrapped ≤ 524287, folded over the trailing unit axis. -/
def inBounds (I : IVec Spair 32) : IVec Spair 1 :=
  Host.reduce IntOp.andi
    (andi (cmpi .sge (wrapIdx hb hsc I) (broadcastInDim Spair1 ![] hb1 (constantI Sscal 32 0#32)))
      (cmpi .sle (wrapIdx hb hsc I)
        (broadcastInDim Spair1 ![0, 1, 2] hb3 (broadcastInDim Sones ![2] hb2 (constantI Sone 32 524287#32)))))
    (constantI Sscal 1 1#1) hr h0

/-- take_along_axis with the fill value `fill` where the wrapped index is out of bounds. -/
def takeWith {α : Type} (d : GatherDims Stab Spair1 Spair) (fill : Spair.Idx → α) (X : Stab.Idx → α)
    (I : IVec Spair 32) : Spair.Idx → α :=
  select (inBounds hb hsc hb1 hb2 hb3 hr h0 I) (Host.gather d X (wrapIdx hb hsc I)) fill

/-- The wrapped word of an index in [-524288, 524288) lies in [0, 524287]: a negative one moves up by 524288 without
    leaving the signed range, a nonnegative one stays. -/
private theorem wrap_bounds (a : BitVec 32) (h1 : -524288 ≤ a.toInt) (h2 : a.toInt < 524288) :
    0 ≤ (Scalar.select (IntOp.cmpi .slt a 0#32) (IntOp.addi a 524288#32) a).toInt ∧
      (Scalar.select (IntOp.cmpi .slt a 0#32) (IntOp.addi a 524288#32) a).toInt ≤ 524287 := by
  have hz : (0#32 : BitVec 32).toInt = 0 := by decide
  by_cases hneg : a.toInt < 0
  · have hc : IntOp.cmpi .slt a 0#32 = 1#1 := IntOp.cmpi_slt.2 (by rw [hz]; exact hneg)
    rw [hc, ValueIdx.select_one]
    have hk : (524288#32 : BitVec 32).toInt = 524288 := by decide
    have hs : (IntOp.addi a 524288#32).toInt = a.toInt + 524288 := by
      unfold IntOp.addi
      rw [BitVec.toInt_add, hk]
      rw [Int.bmod_def]
      split <;> omega
    omega
  · have hc : ¬ IntOp.cmpi .slt a 0#32 = 1 := fun hh => hneg (by have := IntOp.cmpi_slt.1 hh; rwa [hz] at this)
    unfold Scalar.select
    rw [if_neg hc]
    omega

/-- A left fold of "and" from 1 over entries that are all 1 is 1. -/
private theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..), show IntOp.andi 1#1 1#1 = 1#1 from by decide]
    exact ih fun n hn => hf n (List.mem_cons_of_mem _ hn)

/-- In range, every in-bounds flag is set. -/
theorem inBounds_of_inRange (I : IVec Spair 32) (hI : InRange I) :
    inBounds hb hsc hb1 hb2 hb3 hr h0 I = fun _ => 1#1 := by
  funext j
  unfold inBounds
  rw [Host.reduce_eq_foldl]
  refine foldl_andi_ones _ _ fun i _ => ?_
  -- the flag at i compares the wrapped word of one entry of I with the two constants
  obtain ⟨k, hk⟩ : ∃ k, wrapIdx hb hsc I i
      = Scalar.select (IntOp.cmpi .slt (I k) 0#32) (IntOp.addi (I k) 524288#32) (I k) :=
    ⟨Shape.reshapeEquiv hsc i, rfl⟩
  obtain ⟨hlo, hhi⟩ := wrap_bounds (I k) (hI k).1 (hI k).2
  show IntOp.andi (IntOp.cmpi .sge (wrapIdx hb hsc I i) 0#32) (IntOp.cmpi .sle (wrapIdx hb hsc I i) 524287#32) = 1#1
  rw [hk, IntOp.andi_eq_one, IntOp.cmpi_sge, IntOp.cmpi_sle, show (0#32 : BitVec 32).toInt = 0 from by decide,
    show (524287#32 : BitVec 32).toInt = 524287 from by decide]
  exact ⟨hlo, hhi⟩

/-- In range, the validity mask gathered as floats and compared with one half is the mask gathered as bits:
    neither fill is used, and the bit b as the float b exceeds one half exactly when b is set. -/
theorem takeWith_mask (d : GatherDims Stab Spair1 Spair) (M : IVec Stab 1) (I : IVec Spair 32) (hI : InRange I)
    (j : Spair.Idx) :
    Ideal.cmp .ogt
        (takeWith hb hsc hb1 hb2 hb3 hr h0 d
          (broadcastInDim Spair ![] hb (constant (F := Ideal) Sscal .f32 0x7FC00000#32))
          (uitofp (F := Ideal) .f32 M) I j) halfC
      = takeWith hb hsc hb1 hb2 hb3 hr h0 d (broadcastInDim Spair ![] hb (constantI Sscal 1 1#1)) M I j := by
  unfold takeWith select
  rw [inBounds_of_inRange hb hsc hb1 hb2 hb3 hr h0 I hI, ValueIdx.select_one, ValueIdx.select_one]
  -- both sides read the table at the same position; the float side reads the bit there as the real 0 or 1
  exact cmp_gt_half_bit (M (d.operandIdx j (wrapIdx hb hsc I)))

end Take

end Cert.RankLoss

end
-- ==== Proof.PreRange.lean ====
/-
  What the precondition says about the two index arrays.

  The precondition is the conjunction of four all-reductions: every prediction finite, every depth finite, and for
  each index array every entry at least -524288 and below 524288 (signed). An all-reduction by "and" that is 1 had a
  1 at every entry, and the two signed comparisons against the constants read as the two bounds on the entry's signed
  value; -524288 is the word 4294443008.
-/
import proofs.«401007_j64742337020663_4_alg».proof.Pre_finite_inputs
import Idealize.ShloMosaic.Lib.ReduceAll
import Idealize.ShloMosaic.Lib.Affine
import Idealize.ShloMosaic.Lib.ValueIdx
import proofs.«401007_j64742337020663_4_alg».proof.Proof.Take

noncomputable section

namespace Cert.RankLoss

open Idealize.ShloMosaic

/-- The scalar shape has one index. -/
private instance : Subsingleton (⟨0, ![]⟩ : Shape).Idx := ⟨fun a b => funext fun d => d.elim0⟩

/-- An entry that tests at least the word 4294443008 and below the word 524288, both signed, lies in [-524288, 524288). -/
private theorem range_of_flags (x : BitVec 32)
    (h : IntOp.andi (IntOp.cmpi .sge x 4294443008#32) (IntOp.cmpi .slt x 524288#32) = 1#1) :
    -524288 ≤ x.toInt ∧ x.toInt < 524288 := by
  obtain ⟨hge, hlt⟩ := IntOp.andi_eq_one.1 h
  have h1 := IntOp.cmpi_sge.1 hge
  have h2 := IntOp.cmpi_slt.1 hlt
  rw [show (4294443008#32 : BitVec 32).toInt = -524288 from by decide] at h1
  rw [show (524288#32 : BitVec 32).toInt = 524288 from by decide] at h2
  exact ⟨h1, h2⟩

/-- Under the precondition both index arrays are in range of the pixel axis. -/
theorem inRange_of_pre {F : FTy → Type} [FloatOps F] [Cert.Pre_finite_inputs.Facts]
    (a0 a1 : FVec F Cert.Pre_finite_inputs.S32x1x512x1024 .f32) (a2 : IVec Cert.Pre_finite_inputs.S32x1x512x1024 1)
    (A B : IVec Spair 32)
    (h : Cert.Pre_finite_inputs.fn (F := F) a0 a1 a2 A B = fun _ => 1#1) : InRange A ∧ InRange B := by
  have h0 := congrFun h ValueIdx.ix0
  dsimp only [Cert.Pre_finite_inputs.fn, Cert.Pre_finite_inputs.fn_part1] at h0
  -- the result is ((finite ∧ finite) ∧ all-in-range A) ∧ all-in-range B
  obtain ⟨h15, hB⟩ := IntOp.andi_eq_one.1 h0
  obtain ⟨_, hA⟩ := IntOp.andi_eq_one.1 h15
  refine ⟨fun j => ?_, fun j => ?_⟩
  · exact range_of_flags (A j) (Host.reduce_andi_all _ _ _ _ _ hA j)
  · exact range_of_flags (B j) (Host.reduce_andi_all _ _ _ _ _ hB j)

end Cert.RankLoss

end
-- ==== Proof.LossDefs.lean ====
/-
  The two ways the loss is assembled from the six gathered arrays.

  From the [32, 5000] arrays iA, iB, tA, tB of gathered predictions and depths and two validity arrays:

  • refLoss sums each pair's three terms over all 32 · 5000 pairs at once, the validity arrays being bits.

  • kerLoss first pads every image's row from 5000 to 5120 lanes with the integer 0 as a float, carries the validity
    arrays as floats compared with one half, sums each image's 5120 lanes (the unequal term in its stable spelling),
    leaves the three per-image sums in lanes 0, 1, 2 of a 128-lane row (zero elsewhere), and then sums each of those
    lanes over the 32 images.
-/
import proofs.«401007_j64742337020663_4_alg».proof.Proof.Take

noncomputable section

open scoped BigOperators

namespace Cert.RankLoss

open Idealize.ShloMosaic Idealize.ShloMosaic.ValueIdx

/-- Both validity floats exceed one half. -/
def cmK (a b : EReal) : BitVec 1 := IntOp.andi (Ideal.cmp .ogt a halfC) (Ideal.cmp .ogt b halfC)

/-- The padding value: the 32-bit integer 0 converted to a float. -/
abbrev padC : EReal := (((0#32 : BitVec 32).toInt : ℝ) : EReal)

/-- Row n of a [32, 5000] array padded to 5120 lanes. -/
def padRow (x : Spair.Idx → EReal) (n : Fin 32) (l : Fin 5120) : EReal :=
  if h : l.val < 5000 then x (ix2 n ⟨l.val, h⟩) else padC

/-- What one image leaves in lane k of its 128-lane output row, from its six rows of 5120 lanes. -/
def laneVal (r0 r1 r2 r3 r4 r5 : Fin 5120 → EReal) (k : Fin 128) : EReal :=
  if k.val = 0 then ∑ l : Fin 5120, eqTerm (r0 l) (r1 l) (r2 l) (r3 l) (cmK (r4 l) (r5 l))
  else if k.val = 1 then ∑ l : Fin 5120, uneqTermStable (r0 l) (r1 l) (r2 l) (r3 l) (cmK (r4 l) (r5 l))
  else if k.val = 2 then ∑ l : Fin 5120, cntTerm (cmK (r4 l) (r5 l))
  else zeroC

/-- The loss summed over all pairs at once, validity as bits. -/
def refLoss (iA iB tA tB : Spair.Idx → EReal) (mA mB : IVec Spair 1) : EReal :=
  loss (zeroC + ∑ j : Spair.Idx, eqTerm (iA j) (iB j) (tA j) (tB j) (IntOp.andi (mA j) (mB j)))
    (zeroC + ∑ j : Spair.Idx, uneqTerm (iA j) (iB j) (tA j) (tB j) (IntOp.andi (mA j) (mB j)))
    (∑ j : Spair.Idx, cntTerm (IntOp.andi (mA j) (mB j)))

/-- The loss summed image by image over padded rows, validity as floats. -/
def kerLoss (iA iB tA tB mA mB : Spair.Idx → EReal) : EReal :=
  loss
    (zeroC + ∑ n : Fin 32, laneVal (padRow iA n) (padRow iB n) (padRow tA n) (padRow tB n) (padRow mA n) (padRow mB n) ⟨0, by decide⟩)
    (zeroC + ∑ n : Fin 32, laneVal (padRow iA n) (padRow iB n) (padRow tA n) (padRow tB n) (padRow mA n) (padRow mB n) ⟨1, by decide⟩)
    (zeroC + ∑ n : Fin 32, laneVal (padRow iA n) (padRow iB n) (padRow tA n) (padRow tB n) (padRow mA n) (padRow mB n) ⟨2, by decide⟩)

end Cert.RankLoss

end
-- ==== Proof.Sums.lean ====
/-
  Three facts about sums that the two programs' different summation orders rest on.

  The number of valid pairs is counted in two ways: as a 32-bit integer sum of the validity bits widened to words,
  converted to a float at the end, and as a float sum of ones. There are at most 32 · 5000 = 160000 pairs, far below
  2³¹, so the integer sum does not wrap and its signed reading is the number of set bits; the word 0x3F800000 is the
  real 1, so the float sum of ones is the same number.

  A row of 5120 lanes whose last 120 lanes hold zero sums to the sum of its first 5000 lanes.
-/
import Idealize.ShloMosaic.PureOps.Reduce
import Idealize.ShloMosaic.Lib.StableHlo.Predicate
import Mathlib.Algebra.BigOperators.Fin
import proofs.«401007_j64742337020663_4_alg».proof.Proof.Take

noncomputable section

open scoped BigOperators

namespace Cert.RankLoss

open Idealize.ShloMosaic Idealize.ShloMosaic.ValueIdx

/-- The word 0x3F800000 is one. -/
theorem oneC_eq : oneC = 1 := by
  simp [Ideal.ofBits, Ideal.ieee, -EReal.coe_mul]; norm_num

/-- The inclusion of the naturals in the extended reals, through the reals, carries a finite sum to the sum. -/
private theorem coe_nat_sum {ι : Type} (S : Finset ι) (c : ι → ℕ) :
    (((∑ j ∈ S, c j : ℕ) : ℝ) : EReal) = ∑ j ∈ S, (((c j : ℕ) : ℝ) : EReal) := by
  classical
  induction S using Finset.induction_on with
  | empty => simp
  | insert a S ha ih => rw [Finset.sum_insert ha, Finset.sum_insert ha, Nat.cast_add, EReal.coe_add, ih]

/-- The count term of a bit is the bit's value, 1 or 0. -/
private theorem cntTerm_eq (b : BitVec 1) : cntTerm b = (((if b = 1#1 then 1 else 0 : ℕ) : ℝ) : EReal) := by
  unfold cntTerm Scalar.select
  split
  · rename_i hb
    have hb' : b = 1#1 := hb
    rw [oneC_eq, if_pos hb']; simp
  · rename_i hb
    have hb' : ¬ b = 1#1 := hb
    rw [zeroC_eq, if_neg hb']; simp

/-- The validity bits widened to 32-bit words and summed as integers, read signed as a float, is the float sum of
    one per set bit. -/
theorem count_sum (cm : IVec Spair 1) (hw : 1 < 32) (h : Spair.ReducesTo [0, 1] Sscal) (hu : 0 < Sscal.numel)
    (i : Sscal.Idx) :
    ((((Host.reduce IntOp.addi (extui 32 cm hw) (constantI Sscal 32 0#32) h hu i).toInt : ℝ)) : EReal)
      = ∑ j : Spair.Idx, cntTerm (cm j) := by
  classical
  rw [Host.reduce_eq_fold]
  -- the result has one index, so every pair reduces to it
  have hall : (Finset.univ.filter fun j : Spair.Idx => h.drop j = i) = Finset.univ := by
    apply Finset.filter_true_of_mem; intro j _; funext a; exact a.elim0
  have hinit : (constantI Sscal 32 0#32) (Shape.Idx.first hu) = 0#32 := rfl
  rw [hall, hinit]
  -- a widened bit is worth 0 or 1
  have hval : ∀ j, (extui 32 cm hw j).toNat = if cm j = 1#1 then 1 else 0 :=
    fun j => StableHlo.Predicate.toNat_setWidth_bit (cm j)
  -- so the sum over the 32 · 5000 pairs is at most 160000
  have hle : ∑ j : Spair.Idx, (extui 32 cm hw j).toNat ≤ 160000 := by
    rw [sum_idx2]
    calc ∑ a : Fin 32, ∑ b : Fin 5000, (extui 32 cm hw (ix2 a b)).toNat
        ≤ ∑ a : Fin 32, ∑ b : Fin 5000, 1 := by
          apply Finset.sum_le_sum; intro a _; apply Finset.sum_le_sum; intro b _
          rw [hval]; split <;> omega
      _ = 160000 := by simp
  -- the word sum does not wrap, and read signed it is still that natural number
  have hnat := StableHlo.Predicate.toNat_fold_addi Finset.univ (extui 32 cm hw) (by omega)
  rw [StableHlo.Predicate.toInt_eq_toNat_of_lt (by rw [hnat]; omega), hnat, Int.cast_natCast, coe_nat_sum]
  apply Finset.sum_congr rfl; intro j _; rw [hval, cntTerm_eq]

/-- A family over 5120 lanes that vanishes on the last 120 sums to the sum over its first 5000 lanes. -/
theorem sum_lanes (f : Fin 5120 → EReal) (g : Fin 5000 → EReal)
    (hfg : ∀ l : Fin 5000, f ⟨l.val, by have := l.isLt; omega⟩ = g l)
    (hz : ∀ l : Fin 5120, 5000 ≤ l.val → f l = 0) :
    ∑ l : Fin 5120, f l = ∑ l : Fin 5000, g l := by
  -- 5120 = 5000 + 120: the sum splits into the first 5000 lanes and the last 120
  have hs : ∑ l : Fin 5120, f l
      = ∑ l : Fin 5000, f (Fin.castAdd 120 l) + ∑ l : Fin 120, f (Fin.natAdd 5000 l) :=
    Fin.sum_univ_add (a := 5000) (b := 120) f
  have h1 : ∑ l : Fin 5000, f (Fin.castAdd 120 l) = ∑ l : Fin 5000, g l :=
    Finset.sum_congr rfl (fun l _ => hfg l)
  have h2 : ∑ l : Fin 120, f (Fin.natAdd 5000 l) = 0 :=
    Finset.sum_eq_zero (fun l _ => hz _ (by simp [Fin.natAdd]))
  rw [hs, h1, h2, add_zero]

/-- A sum over the [32, 5000] pairs is the sum over images of the sum over each image's pairs. -/
theorem sum_pairs (f : Spair.Idx → EReal) :
    ∑ j : Spair.Idx, f j = ∑ n : Fin 32, ∑ l : Fin 5000, f (ix2 n l) :=
  sum_idx2 f

end Cert.RankLoss

end
-- ==== Proof.Bridge.lean ====
/-
  The two assemblies of the loss agree.

  If each validity float exceeds one half exactly when the corresponding validity bit is set, then kerLoss of the
  float arrays is refLoss of the bit arrays. Lane by lane: below lane 5000 the padded rows are the arrays themselves,
  so the pair terms agree (the unequal term by the identity between its two spellings); from lane 5000 on both
  validity floats are the padding value 0, which does not exceed one half, so the pair is invalid and all three terms
  are zero. Hence each image's 5120-lane sum is the sum over its 5000 pairs, and the sum over images of those is the
  sum over all pairs. The extra zero the image-wise count starts from changes nothing.
-/
import proofs.«401007_j64742337020663_4_alg».proof.Proof.LossDefs
import proofs.«401007_j64742337020663_4_alg».proof.Proof.Sums

noncomputable section

open scoped BigOperators

namespace Cert.RankLoss

open Idealize.ShloMosaic Idealize.ShloMosaic.ValueIdx

/-- Below lane 5000 a padded row is the array's row. -/
private theorem padRow_lt (x : Spair.Idx → EReal) (n : Fin 32) (l : Fin 5000) :
    padRow x n ⟨l.val, by have := l.isLt; omega⟩ = x (ix2 n l) := by
  unfold padRow
  rw [dif_pos l.isLt]

/-- From lane 5000 on a padded row holds the padding value. -/
private theorem padRow_ge (x : Spair.Idx → EReal) (n : Fin 32) (l : Fin 5120) (h : 5000 ≤ l.val) :
    padRow x n l = padC := by
  unfold padRow
  rw [dif_neg (by omega)]

/-- Two padding values make an invalid pair. -/
private theorem cmK_pad : cmK padC padC = 0#1 := by
  unfold cmK
  rw [cmp_gt_half_pad]; rfl

private theorem andi_zero (b : BitVec 1) : IntOp.andi b 0#1 = 0#1 := by
  revert b; decide

/-- An invalid pair contributes zero to each of the three sums. -/
private theorem eqTerm_invalid (a b c d : EReal) : eqTerm a b c d 0#1 = 0 := by
  unfold eqTerm
  rw [andi_zero, select_zero, zeroC_eq]

private theorem uneqTermStable_invalid (a b c d : EReal) : uneqTermStable a b c d 0#1 = 0 := by
  unfold uneqTermStable
  rw [andi_zero, select_zero, zeroC_eq]

private theorem cntTerm_invalid : cntTerm 0#1 = 0 := by
  unfold cntTerm
  rw [select_zero, zeroC_eq]

/-- For any pair term T that vanishes on an invalid pair: its sum over every image's 5120 padded lanes, validity read
    from the floats, is its sum over all pairs, validity read from the bits. -/
private theorem sum_images (iA iB tA tB mAf mBf : Spair.Idx → EReal) (mA mB : IVec Spair 1)
    (hA : ∀ j, Ideal.cmp .ogt (mAf j) halfC = mA j) (hB : ∀ j, Ideal.cmp .ogt (mBf j) halfC = mB j)
    (T : EReal → EReal → EReal → EReal → BitVec 1 → EReal) (hT : ∀ a b c d, T a b c d 0#1 = 0) :
    ∑ n : Fin 32, ∑ l : Fin 5120,
        T (padRow iA n l) (padRow iB n l) (padRow tA n l) (padRow tB n l) (cmK (padRow mAf n l) (padRow mBf n l))
      = ∑ j : Spair.Idx, T (iA j) (iB j) (tA j) (tB j) (IntOp.andi (mA j) (mB j)) := by
  rw [sum_pairs]
  apply Finset.sum_congr rfl
  intro n _
  apply sum_lanes
  · -- a lane below 5000 holds the pair itself, and its two validity floats compare as the two bits say
    intro l
    rw [padRow_lt, padRow_lt, padRow_lt, padRow_lt, padRow_lt, padRow_lt]
    unfold cmK
    rw [hA, hB]
  · -- a lane from 5000 on holds padding only: an invalid pair
    intro l hl
    rw [padRow_ge mAf n l hl, padRow_ge mBf n l hl, cmK_pad, hT]

theorem kerLoss_eq_refLoss (iA iB tA tB mAf mBf : Spair.Idx → EReal) (mA mB : IVec Spair 1)
    (hA : ∀ j, Ideal.cmp .ogt (mAf j) halfC = mA j) (hB : ∀ j, Ideal.cmp .ogt (mBf j) halfC = mB j) :
    kerLoss iA iB tA tB mAf mBf = refLoss iA iB tA tB mA mB := by
  -- lanes 0, 1, 2 of an image's row hold its three sums
  have hE : ∑ n : Fin 32, laneVal (padRow iA n) (padRow iB n) (padRow tA n) (padRow tB n) (padRow mAf n) (padRow mBf n)
        ⟨0, by decide⟩
      = ∑ j : Spair.Idx, eqTerm (iA j) (iB j) (tA j) (tB j) (IntOp.andi (mA j) (mB j)) :=
    sum_images iA iB tA tB mAf mBf mA mB hA hB eqTerm eqTerm_invalid
  have hU : ∑ n : Fin 32, laneVal (padRow iA n) (padRow iB n) (padRow tA n) (padRow tB n) (padRow mAf n) (padRow mBf n)
        ⟨1, by decide⟩
      = ∑ j : Spair.Idx, uneqTerm (iA j) (iB j) (tA j) (tB j) (IntOp.andi (mA j) (mB j)) := by
    -- the stable spelling of the unequal term is the plain one
    have h : ∑ n : Fin 32, laneVal (padRow iA n) (padRow iB n) (padRow tA n) (padRow tB n) (padRow mAf n)
          (padRow mBf n) ⟨1, by decide⟩
        = ∑ j : Spair.Idx, uneqTermStable (iA j) (iB j) (tA j) (tB j) (IntOp.andi (mA j) (mB j)) :=
      sum_images iA iB tA tB mAf mBf mA mB hA hB uneqTermStable uneqTermStable_invalid
    exact h.trans (Finset.sum_congr rfl (fun j _ => uneqTermStable_eq _ _ _ _ _))
  have hC : ∑ n : Fin 32, laneVal (padRow iA n) (padRow iB n) (padRow tA n) (padRow tB n) (padRow mAf n) (padRow mBf n)
        ⟨2, by decide⟩
      = ∑ j : Spair.Idx, cntTerm (IntOp.andi (mA j) (mB j)) :=
    sum_images iA iB tA tB mAf mBf mA mB hA hB (fun _ _ _ _ cm => cntTerm cm) (fun _ _ _ _ => cntTerm_invalid)
  unfold kerLoss refLoss
  rw [hE, hU, hC, zeroC_eq]
  -- the zero the image-wise count starts from changes nothing
  simp only [zero_add]

end Cert.RankLoss

end
-- ==== Proof.RefValue.lean ====
/-
  The reference's result as refLoss of its six gathered arrays, and each gathered array as take_along_axis.

  Read stage by stage: the ratio, the two threshold tests, the label by two selects, the validity as the "and" of the
  two gathered bit arrays, the selected squared difference and the selected log (1 + exp margin), each summed over all
  pairs from an initial zero; the count as an integer sum of the widened validity bits converted to a float; and the
  final (1 · E + U) / (Cn + ε) · 1.
-/
import proofs.«401007_j64742337020663_4_alg».proof.Proof.RefRead
import proofs.«401007_j64742337020663_4_alg».proof.Proof.LossDefs
import proofs.«401007_j64742337020663_4_alg».proof.Proof.Sums

noncomputable section

open scoped BigOperators

namespace Cert.ReferenceIdeal.RefValue

open Cert.ReferenceIdeal Cert.ReferenceIdeal.Gen Cert.ReferenceIdeal.ReadP Cert.RankLoss Idealize.ShloMosaic
  Idealize.ShloMosaic.ValueIdx

/-- The NaN fill of a float take, and the true fill of a bit take. -/
abbrev fillF : S32x5000.Idx → EReal := broadcastInDim S32x5000 ![] bcast_S_S32x5000 (constant (F := Ideal) S_ .f32 0x7FC00000#32)
abbrev fillB : S32x5000.Idx → BitVec 1 := broadcastInDim S32x5000 ![] bcast_S_S32x5000 (constantI S_ 1 1#1)

/-- take_along_axis with this program's own shape evidence and gather record. -/
abbrev takeR {α : Type} (fill : S32x5000.Idx → α) (X : S32x524288.Idx → α) (I : IVec S32x5000 32) : S32x5000.Idx → α :=
  takeWith bcast_S_S32x5000 shapeCasts_S32x5000_S32x5000x1 bcast_S_S32x5000x1 bcast_S1_S1x1x1_2
    bcast_S1x1x1_S32x5000x1_0_1_2 reducesTo_S32x5000x1_S32x5000_d2 h_S_
    gather_S32x524288_S32x5000x1_S32x5000_n_1_0_0_1_2_11 fill X I

/-! ## One pair

Each of the two summed arrays, read at one pair from the six gathered arrays at that pair: the ratio tA / (tB + ε), its two
strict threshold tests, the validity as the "and" of the two gathered bits, and the selected term. -/

/-- One pair of the selected squared difference is the equal-loss term. -/
private theorem v30_term (x0 x1 : (⟨S32x1x512x1024, .f32⟩ : BufTy).Contents (Elt Ideal))
    (x2 : (⟨S32x1x512x1024, .i1⟩ : BufTy).Contents (Elt Ideal))
    (x3 x4 : (⟨S32x5000, .i32⟩ : BufTy).Contents (Elt Ideal)) (j : S32x5000.Idx) :
    val_main_v30 (F := Ideal) x0 x1 x2 x3 x4 j
      = eqTerm (val_main_v3 (F := Ideal) x0 x3 j) (val_main_v4 (F := Ideal) x0 x4 j) (val_main_v5 (F := Ideal) x1 x3 j)
          (val_main_v6 (F := Ideal) x1 x4 j) (IntOp.andi (val_main_v7 (F := Ideal) x2 x3 j) (val_main_v8 (F := Ideal) x2 x4 j)) := by
  simp only [val_main_v30_apply, val_main_v25_apply, val_main_v16_apply, val_main_v13_apply, val_main_v15_apply, val_main_v11_apply, val_main_v10_apply,
    val_main_v9_apply, val_main_cst_apply, val_main_v12_apply, val_main_cst_0_apply, val_main_v14_apply,
    val_main_cst_1_apply, val_main_v24_apply,
    val_main_v29_apply, val_main_v28_apply, val_main_call8_v1_apply, val_main_call8_v0_apply, val_main_cst_7_apply]
  rfl

/-- One pair of the selected log (1 + exp margin) is the unequal-loss term: the margin is (iB - iA) times the label read off
    the two non-strict threshold tests. -/
private theorem v36_term (x0 x1 : (⟨S32x1x512x1024, .f32⟩ : BufTy).Contents (Elt Ideal))
    (x2 : (⟨S32x1x512x1024, .i1⟩ : BufTy).Contents (Elt Ideal))
    (x3 x4 : (⟨S32x5000, .i32⟩ : BufTy).Contents (Elt Ideal)) (j : S32x5000.Idx) :
    val_main_v36 (F := Ideal) x0 x1 x2 x3 x4 j
      = uneqTerm (val_main_v3 (F := Ideal) x0 x3 j) (val_main_v4 (F := Ideal) x0 x4 j) (val_main_v5 (F := Ideal) x1 x3 j)
          (val_main_v6 (F := Ideal) x1 x4 j) (IntOp.andi (val_main_v7 (F := Ideal) x2 x3 j) (val_main_v8 (F := Ideal) x2 x4 j)) := by
  simp only [val_main_v36_apply, val_main_v27_apply, val_main_v26_apply, val_main_v16_apply, val_main_v13_apply, val_main_v15_apply, val_main_v11_apply, val_main_v10_apply,
    val_main_v9_apply, val_main_cst_apply, val_main_v12_apply, val_main_cst_0_apply, val_main_v14_apply,
    val_main_cst_1_apply, val_main_v24_apply,
    val_main_v35_apply, val_main_v34_apply, val_main_v33_apply, val_main_v32_apply, val_main_v23_apply, val_main_v22_apply,
    val_main_v18_apply, val_main_v17_apply, val_main_cst_2_apply, val_main_call7_v0_apply, val_main_cst_6_apply,
    val_main_v21_apply, val_main_v20_apply, val_main_v19_apply, val_main_cst_3_apply, val_main_call6_v0_apply,
    val_main_cst_4_apply, val_main_call6_v1_apply, val_main_cst_5_apply, val_main_call9_v1_apply, val_main_call9_v0_apply,
    val_main_cst_9_apply, Ideal.ofBits_def, Ideal.addf_def, Ideal.subf_def, Ideal.mulf_def, Ideal.hostDivf_def,
    Ideal.hostUnary_exp_def, Ideal.hostUnary_log1p_def, Ideal.cmpf_def]
  rfl

/-! ## The three sums -/

private theorem sum_v30 (x0 x1 : (⟨S32x1x512x1024, .f32⟩ : BufTy).Contents (Elt Ideal))
    (x2 : (⟨S32x1x512x1024, .i1⟩ : BufTy).Contents (Elt Ideal))
    (x3 x4 : (⟨S32x5000, .i32⟩ : BufTy).Contents (Elt Ideal)) :
    ∑ j : S32x5000.Idx, val_main_v30 (F := Ideal) x0 x1 x2 x3 x4 j
      = ∑ j : S32x5000.Idx, eqTerm (val_main_v3 (F := Ideal) x0 x3 j) (val_main_v4 (F := Ideal) x0 x4 j) (val_main_v5 (F := Ideal) x1 x3 j)
          (val_main_v6 (F := Ideal) x1 x4 j) (IntOp.andi (val_main_v7 (F := Ideal) x2 x3 j) (val_main_v8 (F := Ideal) x2 x4 j)) :=
  Finset.sum_congr rfl fun j _ => v30_term x0 x1 x2 x3 x4 j

private theorem sum_v36 (x0 x1 : (⟨S32x1x512x1024, .f32⟩ : BufTy).Contents (Elt Ideal))
    (x2 : (⟨S32x1x512x1024, .i1⟩ : BufTy).Contents (Elt Ideal))
    (x3 x4 : (⟨S32x5000, .i32⟩ : BufTy).Contents (Elt Ideal)) :
    ∑ j : S32x5000.Idx, val_main_v36 (F := Ideal) x0 x1 x2 x3 x4 j
      = ∑ j : S32x5000.Idx, uneqTerm (val_main_v3 (F := Ideal) x0 x3 j) (val_main_v4 (F := Ideal) x0 x4 j) (val_main_v5 (F := Ideal) x1 x3 j)
          (val_main_v6 (F := Ideal) x1 x4 j) (IntOp.andi (val_main_v7 (F := Ideal) x2 x3 j) (val_main_v8 (F := Ideal) x2 x4 j)) :=
  Finset.sum_congr rfl fun j _ => v36_term x0 x1 x2 x3 x4 j

/-- The integer count of valid pairs, read as a float, is the float sum of one per valid pair. -/
private theorem count_v39 (x2 : (⟨S32x1x512x1024, .i1⟩ : BufTy).Contents (Elt Ideal))
    (x3 x4 : (⟨S32x5000, .i32⟩ : BufTy).Contents (Elt Ideal)) (i : S_.Idx) :
    FloatOps.sitofp (F := Ideal) .f32 (val_main_v39 (F := Ideal) x2 x3 x4 i)
      = ∑ j : S32x5000.Idx, cntTerm (IntOp.andi (val_main_v7 (F := Ideal) x2 x3 j) (val_main_v8 (F := Ideal) x2 x4 j)) :=
  count_sum (val_main_v24 (F := Ideal) x2 x3 x4) natLt_1_32 reducesTo_S32x5000_S_d0_1 h_S_ i

/-- The reference's result is refLoss of its six gathered arrays (stages 3 to 8). -/
theorem ref_value (x0 x1 : (⟨S32x1x512x1024, .f32⟩ : BufTy).Contents (Elt Ideal))
    (x2 : (⟨S32x1x512x1024, .i1⟩ : BufTy).Contents (Elt Ideal))
    (x3 x4 : (⟨S32x5000, .i32⟩ : BufTy).Contents (Elt Ideal)) (i : S_.Idx) :
    val_main_v45 (F := Ideal) x0 x1 x2 x3 x4 i
      = refLoss (val_main_v3 (F := Ideal) x0 x3) (val_main_v4 (F := Ideal) x0 x4) (val_main_v5 (F := Ideal) x1 x3)
          (val_main_v6 (F := Ideal) x1 x4) (val_main_v7 (F := Ideal) x2 x3) (val_main_v8 (F := Ideal) x2 x4) := by
  rw [val_main_v45_apply, val_main_v44_apply, val_main_v42_apply, val_main_v43_apply, val_main_v41_apply,
    val_main_v40_apply, val_main_v31_apply, val_main_v37_apply, sum_v30, sum_v36, count_v39, val_main_cst_13_apply,
    val_main_cst_12_apply, val_main_cst_11_apply, val_main_cst_10_apply, val_main_cst_8_apply]
  rfl

/-- Each float stage 3 to 6 is take_along_axis of the reshaped table with the NaN fill. -/
theorem val_main_v3_eq (x : (⟨S32x1x512x1024, .f32⟩ : BufTy).Contents (Elt Ideal)) (I : (⟨S32x5000, .i32⟩ : BufTy).Contents (Elt Ideal)) :
    val_main_v3 (F := Ideal) x I = takeR fillF (shapeCast S32x524288 x shapeCasts_S32x1x512x1024_S32x524288) I := by
  unfold takeR takeWith inBounds wrapIdx val_main_v3 val_main_call0_v12 val_main_call0_v13 val_main_call0_v14 val_main_call0_v11
    val_main_call0_v7 val_main_call0_v10 val_main_call0_v9 val_main_call0_v8 val_main_call0_v6 val_main_call0_v5 val_main_call0_v4
    val_main_call0_v3 val_main_call0_v2 val_main_call0_v1 val_main_call0_v0 val_main_call0_c val_main_call0_c_0 val_main_call0_c_1
    val_main_call0_c_2 val_main_call0_c_3 val_main_call0_cst val_main_v0
  rfl
theorem val_main_v4_eq (x : (⟨S32x1x512x1024, .f32⟩ : BufTy).Contents (Elt Ideal)) (I : (⟨S32x5000, .i32⟩ : BufTy).Contents (Elt Ideal)) :
    val_main_v4 (F := Ideal) x I = takeR fillF (shapeCast S32x524288 x shapeCasts_S32x1x512x1024_S32x524288) I := by
  unfold takeR takeWith inBounds wrapIdx val_main_v4 val_main_call1_v12 val_main_call1_v13 val_main_call1_v14 val_main_call1_v11
    val_main_call1_v7 val_main_call1_v10 val_main_call1_v9 val_main_call1_v8 val_main_call1_v6 val_main_call1_v5 val_main_call1_v4
    val_main_call1_v3 val_main_call1_v2 val_main_call1_v1 val_main_call1_v0 val_main_call1_c val_main_call1_c_0 val_main_call1_c_1
    val_main_call1_c_2 val_main_call1_c_3 val_main_call1_cst val_main_v0
  rfl
theorem val_main_v5_eq (x : (⟨S32x1x512x1024, .f32⟩ : BufTy).Contents (Elt Ideal)) (I : (⟨S32x5000, .i32⟩ : BufTy).Contents (Elt Ideal)) :
    val_main_v5 (F := Ideal) x I = takeR fillF (shapeCast S32x524288 x shapeCasts_S32x1x512x1024_S32x524288) I := by
  unfold takeR takeWith inBounds wrapIdx val_main_v5 val_main_call2_v12 val_main_call2_v13 val_main_call2_v14 val_main_call2_v11
    val_main_call2_v7 val_main_call2_v10 val_main_call2_v9 val_main_call2_v8 val_main_call2_v6 val_main_call2_v5 val_main_call2_v4
    val_main_call2_v3 val_main_call2_v2 val_main_call2_v1 val_main_call2_v0 val_main_call2_c val_main_call2_c_0 val_main_call2_c_1
    val_main_call2_c_2 val_main_call2_c_3 val_main_call2_cst val_main_v1
  rfl
theorem val_main_v6_eq (x : (⟨S32x1x512x1024, .f32⟩ : BufTy).Contents (Elt Ideal)) (I : (⟨S32x5000, .i32⟩ : BufTy).Contents (Elt Ideal)) :
    val_main_v6 (F := Ideal) x I = takeR fillF (shapeCast S32x524288 x shapeCasts_S32x1x512x1024_S32x524288) I := by
  unfold takeR takeWith inBounds wrapIdx val_main_v6 val_main_call3_v12 val_main_call3_v13 val_main_call3_v14 val_main_call3_v11
    val_main_call3_v7 val_main_call3_v10 val_main_call3_v9 val_main_call3_v8 val_main_call3_v6 val_main_call3_v5 val_main_call3_v4
    val_main_call3_v3 val_main_call3_v2 val_main_call3_v1 val_main_call3_v0 val_main_call3_c val_main_call3_c_0 val_main_call3_c_1
    val_main_call3_c_2 val_main_call3_c_3 val_main_call3_cst val_main_v1
  rfl
/-- Each bit stage 7 and 8 is take_along_axis of the reshaped mask with the true fill. -/
theorem val_main_v7_eq (x : (⟨S32x1x512x1024, .i1⟩ : BufTy).Contents (Elt Ideal)) (I : (⟨S32x5000, .i32⟩ : BufTy).Contents (Elt Ideal)) :
    val_main_v7 (F := Ideal) x I = takeR fillB (shapeCast S32x524288 x shapeCasts_S32x1x512x1024_S32x524288) I := by
  unfold takeR takeWith inBounds wrapIdx val_main_v7 val_main_call4_v12 val_main_call4_v13 val_main_call4_v14 val_main_call4_v11
    val_main_call4_v7 val_main_call4_v10 val_main_call4_v9 val_main_call4_v8 val_main_call4_v6 val_main_call4_v5 val_main_call4_v4
    val_main_call4_v3 val_main_call4_v2 val_main_call4_v1 val_main_call4_v0 val_main_call4_c val_main_call4_c_0 val_main_call4_c_1
    val_main_call4_c_2 val_main_call4_c_3 val_main_call4_c_4 val_main_v2
  rfl
theorem val_main_v8_eq (x : (⟨S32x1x512x1024, .i1⟩ : BufTy).Contents (Elt Ideal)) (I : (⟨S32x5000, .i32⟩ : BufTy).Contents (Elt Ideal)) :
    val_main_v8 (F := Ideal) x I = takeR fillB (shapeCast S32x524288 x shapeCasts_S32x1x512x1024_S32x524288) I := by
  unfold takeR takeWith inBounds wrapIdx val_main_v8 val_main_call5_v12 val_main_call5_v13 val_main_call5_v14 val_main_call5_v11
    val_main_call5_v7 val_main_call5_v10 val_main_call5_v9 val_main_call5_v8 val_main_call5_v6 val_main_call5_v5 val_main_call5_v4
    val_main_call5_v3 val_main_call5_v2 val_main_call5_v1 val_main_call5_v0 val_main_call5_c val_main_call5_c_0 val_main_call5_c_1
    val_main_call5_c_2 val_main_call5_c_3 val_main_call5_c_4 val_main_v2
  rfl

end Cert.ReferenceIdeal.RefValue

end
-- ==== Proof.LibCast3.lean ====
/-
  Four re-layouts of rank-2 and rank-3 arrays read at an entry, over coordinates (general: any sizes a, b, c).

  An [a, b, c] array and an [a*b, c] array hold the same entries in the same row-major order: row kk of the second is
  (kk / b, kk % b) of the first, and (g, r) of the first is row g*b + r of the second. An [a, c] array seen as [a, 1, c] keeps
  its entries; an [a, 1, c] array spread along the middle axis to [a, b, c] repeats entry (g, 0, n) at every (g, r, n).
-/
import Idealize.ShloMosaic.Lib.ValueIdx
import Idealize.ShloMosaic.Lib.ValueLayout
import Idealize.ShloMosaic.Lib.Pipeline.Value

noncomputable section

namespace Cert.LibCast3

open Idealize.ShloMosaic Idealize.ShloMosaic.ValueIdx

variable {α : Type}

/-- [a, b, c] seen as [m, c] with m = a * b: row kk is (kk / b, kk % b). -/
theorem cast_abc_mc {a b c m : ℕ} (hm : m = a * b) (hb : 0 < b) (x : (⟨3, ![a, b, c]⟩ : Shape).Idx → α)
    (h : (⟨3, ![a, b, c]⟩ : Shape).ShapeCasts ⟨2, ![m, c]⟩) (kk : Fin m) (n : Fin c) :
    shapeCast ⟨2, ![m, c]⟩ x h (ix2 kk n)
      = x (ix3 (⟨kk.val / b, Nat.div_lt_of_lt_mul (lt_of_lt_of_eq kk.isLt (hm.trans (Nat.mul_comm a b)))⟩ : Fin a)
            (⟨kk.val % b, Nat.mod_lt _ hb⟩ : Fin b) n) :=
  shapeCast_apply x h _ _ (by
    rw [Shape.rowMajor_val_three, Shape.rowMajor_val_two]
    show (kk.val / b * b + kk.val % b) * c + n.val = kk.val * c + n.val
    rw [Nat.div_add_mod'])

/-- [m, c] seen as [a, b, c] with m = a * b: (g, r) is row g * b + r. -/
theorem cast_mc_abc {a b c m : ℕ} (hm : m = a * b) (x : (⟨2, ![m, c]⟩ : Shape).Idx → α)
    (h : (⟨2, ![m, c]⟩ : Shape).ShapeCasts ⟨3, ![a, b, c]⟩) (g : Fin a) (r : Fin b) (n : Fin c) :
    shapeCast ⟨3, ![a, b, c]⟩ x h (ix3 g r n)
      = x (ix2 (⟨g.val * b + r.val, by
            have hg := g.isLt; have hr := r.isLt; rw [hm]
            calc g.val * b + r.val < g.val * b + b := by omega
              _ = (g.val + 1) * b := by rw [Nat.add_mul, Nat.one_mul]
              _ ≤ a * b := Nat.mul_le_mul_right b hg⟩ : Fin m) n) :=
  shapeCast_apply x h _ _ (by
    rw [Shape.rowMajor_val_three, Shape.rowMajor_val_two]
    rfl)

/-- [a, c] seen as [a, 1, c] keeps its entries. -/
theorem cast_ac_a1c {a c : ℕ} (x : (⟨2, ![a, c]⟩ : Shape).Idx → α)
    (h : (⟨2, ![a, c]⟩ : Shape).ShapeCasts ⟨3, ![a, 1, c]⟩) (g : Fin a) (u : Fin 1) (n : Fin c) :
    shapeCast ⟨3, ![a, 1, c]⟩ x h (ix3 g u n) = x (ix2 g n) :=
  shapeCast_apply x h _ _ (by
    have hu : u.val = 0 := by omega
    rw [Shape.rowMajor_val_three, Shape.rowMajor_val_two]
    show g.val * c + n.val = (g.val * 1 + u.val) * c + n.val
    rw [hu, Nat.mul_one, Nat.add_zero])

/-- [a, 1, c] spread to [a, b, c] repeats (g, 0, n) along the middle axis. -/
theorem bcast_a1c_abc {a b c : ℕ} (hc : c ≠ 1) (ha : a ≠ 1) (v : (⟨3, ![a, 1, c]⟩ : Shape).Idx → α)
    (h : (⟨3, ![a, 1, c]⟩ : Shape).Broadcasts ⟨3, ![a, b, c]⟩) (g : Fin a) (r : Fin b) (n : Fin c) :
    broadcastTo ⟨3, ![a, b, c]⟩ v h (ix3 g r n) = v (ix3 g (0 : Fin 1) n) := by
  refine broadcastTo_apply v h (ix3 g r n) (ix3 g (0 : Fin 1) n) fun ax => ?_
  match ax with
  | ⟨0, _⟩ =>
    show g.val = if a = 1 then 0 else g.val
    rw [if_neg ha]
  | ⟨1, _⟩ => rfl
  | ⟨2, _⟩ =>
    show n.val = if c = 1 then 0 else n.val
    rw [if_neg hc]

end Cert.LibCast3

end
-- ==== Proof.WinArr.lean ====
/-
  A gathered [32, 5000] array as a window's [32, 1, 5120] array, read at an entry.

  The host pads each image's row with 120 lanes of the integer 0 converted to a float (nothing before the row, nothing
  between lanes, nothing along the image axis) and lays the [32, 5120] result out as [32, 1, 5120] without moving an
  entry. So entry (n, 0, l) is the gathered entry (n, l) below lane 5000 and the padding value from there on.
-/
import proofs.«401007_j64742337020663_4_alg».proof.Proof.Gen.KernelIdeal
import Idealize.ShloMosaic.PureOps.Ideal
import Idealize.ShloMosaic.Lib.ValueIdx
import Idealize.ShloMosaic.Lib.Pipeline.Value
import proofs.«401007_j64742337020663_4_alg».proof.Proof.LossDefs
import proofs.«401007_j64742337020663_4_alg».proof.Proof.LibCast3

noncomputable section

namespace Cert.KernelIdeal.WinArr

open Cert.KernelIdeal Cert.KernelIdeal.Gen Cert.KernelIdeal.Facts Cert.RankLoss Idealize.ShloMosaic
  Idealize.ShloMosaic.ValueIdx

/-- A gathered array padded to 5120 lanes and laid out as a window's [32, 1, 5120] array. -/
def winArr (x : S32x5000.Idx → EReal) : S32x1x5120.Idx → EReal :=
  shapeCast S32x1x5120
    (pad S32x5120 ![0, 0] ![0, 120] ![0, 0] x (sitofp (F := Ideal) .f32 (constantI S_ 32 0#32))
      pads_S32x5000_S32x5120_000_01200 h_S_) shapeCasts_S32x5120_S32x1x5120

/-- An [N, C] array padded after its last column only (nothing before an entry, nothing between entries, nothing along
    the row axis) to [N, T], read at (k, c): the array below column C, the padding scalar from there on. -/
private theorem pad_cols_apply {α : Type} {N C T : ℕ} (hi : Fin 2 → ℕ) (x : (⟨2, ![N, C]⟩ : Shape).Idx → α) {u : Shape}
    (v : u.Idx → α) (hp : (⟨2, ![N, C]⟩ : Shape).Pads (![0, 0] : Fin 2 → ℕ) hi ![0, 0] ⟨2, ![N, T]⟩)
    (hu : 0 < u.numel) (k : Fin N) (c : Fin T) :
    pad ⟨2, ![N, T]⟩ ![0, 0] hi ![0, 0] x v hp hu (ix2 k c)
      = if h : c.val < C then x (ix2 k ⟨c.val, h⟩) else v (Shape.Idx.first hu) := by
  unfold pad
  split_ifs with hin hc hc
  · -- inside on both axes: with no low padding and no interior padding the operand coordinate is the coordinate itself
    refine congrArg x (funext fun a => Fin.ext ?_)
    match a with
    | ⟨0, _⟩ => show (k.val - 0) / (0 + 1) = k.val; simp
    | ⟨1, _⟩ => show (c.val - 0) / (0 + 1) = c.val; simp
  · -- inside on the column axis says c < C
    exfalso
    have h1 : (c.val - 0) / (0 + 1) < C := (hin 1).2.2
    simp at h1
    exact hc h1
  · -- c < C and k < N are inside on both axes
    exfalso
    refine hin (Fin.forall_fin_two.2 ⟨?_, ?_⟩)
    · show 0 ≤ k.val ∧ (k.val - 0) % (0 + 1) = 0 ∧ (k.val - 0) / (0 + 1) < N
      have := k.isLt
      simp; omega
    · show 0 ≤ c.val ∧ (c.val - 0) % (0 + 1) = 0 ∧ (c.val - 0) / (0 + 1) < C
      simp; omega
  · rfl

/-- Entry (n, 0, l) of the window array is the padded row n at lane l. -/
theorem winArr_apply (x : S32x5000.Idx → EReal) (n : Fin 32) (l : Fin 5120) :
    winArr x (ix3 n (0 : Fin 1) l) = padRow x n l := by
  unfold winArr
  -- the [32, 5120] → [32, 1, 5120] layout keeps entry (n, l) at (n, 0, l)
  refine (Cert.LibCast3.cast_ac_a1c (a := 32) (c := 5120) _ shapeCasts_S32x5120_S32x1x5120 n (0 : Fin 1) l).trans ?_
  -- the padded array at (n, l); the padding scalar is the integer 0 read signed as a real
  refine (pad_cols_apply (N := 32) (C := 5000) (T := 5120) ![0, 120] x _ pads_S32x5000_S32x5120_000_01200 h_S_ n l).trans ?_
  rfl

end Cert.KernelIdeal.WinArr

end
-- ==== Proof.KerIn.lean ====
/-
  The six arrays the kernel's windows are cut from, as functions of the program's arguments.

  Before the region the host reshapes the prediction, depth and mask images to [32, 524288] tables (the mask also
  converted to the floats 0 and 1), gathers each table along the pixel axis at the A indices and at the B indices,
  pads each gathered [32, 5000] array with 120 lanes of the integer 0 converted to a float, and lays the result out
  as [32, 1, 5120]. Windows 0 to 5 are cut from: predictions at A, predictions at B, depths at A, depths at B, the
  mask floats at A, the mask floats at B.
-/
import proofs.«401007_j64742337020663_4_alg».proof.Proof.Gen.KernelIdeal.Frame
import Idealize.ShloMosaic.Lib.StableHlo.Run
import Idealize.ShloMosaic.PureOps.Ideal
import Idealize.ShloMosaic.Lib.ValueIdx
import Idealize.ShloMosaic.Lib.Pipeline.Value
import proofs.«401007_j64742337020663_4_alg».proof.Proof.LossDefs
import proofs.«401007_j64742337020663_4_alg».proof.Proof.WinArr

noncomputable section

namespace Cert.KernelIdeal.KerIn

open Cert.KernelIdeal Cert.KernelIdeal.Gen Cert.KernelIdeal.Facts Cert.KernelIdeal.WinArr Cert.RankLoss Idealize.ShloMosaic Idealize.ShloMosaic.TcCoe
  Idealize.SL.Sem Idealize.ShloMosaic.StableHlo Idealize.ShloMosaic.ValueIdx

variable (m : (ℓ : Loc nD τ sig) → Buf (Elt Ideal) ℓ)

/-- The NaN fill of a float take. -/
abbrev fillF : S32x5000.Idx → EReal :=
  broadcastInDim S32x5000 ![] bcast_S_S32x5000 (constant (F := Ideal) S_ .f32 0x7FC00000#32)

/-- take_along_axis with this program's own shape evidence and gather record. -/
abbrev takeK (X : S32x524288.Idx → EReal) (I : IVec S32x5000 32) : S32x5000.Idx → EReal :=
  takeWith bcast_S_S32x5000 shapeCasts_S32x5000_S32x5000x1 bcast_S_S32x5000x1 bcast_S1_S1x1x1_2
    bcast_S1x1x1_S32x5000x1_0_1_2 reducesTo_S32x5000x1_S32x5000_d2 h_S_
    gather_S32x524288_S32x5000x1_S32x5000_n_1_0_0_1_2_11 fillF X I

/-- The prediction, depth and mask tables; the mask as the floats 0 and 1. -/
abbrev predTab (c : Dev nD) : S32x524288.Idx → EReal :=
  shapeCast S32x524288 (m ((c : Thread nD τ).loc main_arg0)) shapeCasts_S32x1x512x1024_S32x524288
abbrev depthTab (c : Dev nD) : S32x524288.Idx → EReal :=
  shapeCast S32x524288 (m ((c : Thread nD τ).loc main_arg1)) shapeCasts_S32x1x512x1024_S32x524288
abbrev maskBits (c : Dev nD) : IVec S32x524288 1 :=
  shapeCast S32x524288 (m ((c : Thread nD τ).loc main_arg2)) shapeCasts_S32x1x512x1024_S32x524288
abbrev maskTab (c : Dev nD) : S32x524288.Idx → EReal := uitofp (F := Ideal) .f32 (maskBits m c)

abbrev idxA (c : Dev nD) : IVec S32x5000 32 := m ((c : Thread nD τ).loc main_arg3)
abbrev idxB (c : Dev nD) : IVec S32x5000 32 := m ((c : Thread nD τ).loc main_arg4)

set_option maxHeartbeats 4000000 in
theorem V_main_v16 (c : Dev nD) :
    (V m c main_v16 : S32x1x5120.Idx → EReal) = winArr (takeK (predTab m c) (idxA m c)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  simp only [TRef.ofBuf, TRef.toBuf, cast_eq]
  rfl

set_option maxHeartbeats 4000000 in
theorem V_main_v17 (c : Dev nD) :
    (V m c main_v17 : S32x1x5120.Idx → EReal) = winArr (takeK (predTab m c) (idxB m c)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  simp only [TRef.ofBuf, TRef.toBuf, cast_eq]
  rfl

set_option maxHeartbeats 4000000 in
theorem V_main_v18 (c : Dev nD) :
    (V m c main_v18 : S32x1x5120.Idx → EReal) = winArr (takeK (depthTab m c) (idxA m c)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  simp only [TRef.ofBuf, TRef.toBuf, cast_eq]
  rfl

set_option maxHeartbeats 4000000 in
theorem V_main_v19 (c : Dev nD) :
    (V m c main_v19 : S32x1x5120.Idx → EReal) = winArr (takeK (depthTab m c) (idxB m c)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  simp only [TRef.ofBuf, TRef.toBuf, cast_eq]
  rfl

set_option maxHeartbeats 4000000 in
theorem V_main_v20 (c : Dev nD) :
    (V m c main_v20 : S32x1x5120.Idx → EReal) = winArr (takeK (maskTab m c) (idxA m c)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  simp only [TRef.ofBuf, TRef.toBuf, cast_eq]
  rfl

set_option maxHeartbeats 4000000 in
theorem V_main_v21 (c : Dev nD) :
    (V m c main_v21 : S32x1x5120.Idx → EReal) = winArr (takeK (maskTab m c) (idxB m c)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  simp only [TRef.ofBuf, TRef.toBuf, cast_eq]
  rfl

end Cert.KernelIdeal.KerIn

end
-- ==== Proof.Block.lean ====
/-
  What the kernel body leaves in an image's output row.

  The body reads six whole rows of 5120 lanes (predictions at A and B, depths at A and B, validity floats at A and B),
  forms the three per-lane terms, sums each over the 5120 lanes, and stores one row of 128 lanes holding the equal sum
  in lane 0, the unequal sum in lane 1, the count in lane 2 and zero elsewhere. The lane number is an iota compared
  with 0, 1 and 2; a lane sum at the exact-real instance is the plain sum over the lane axis.
-/
import proofs.«401007_j64742337020663_4_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value
import proofs.«401007_j64742337020663_4_alg».proof.Proof.LossDefs

noncomputable section

open scoped BigOperators

namespace Cert.KernelIdeal.Block

open Cert.KernelIdeal Cert.KernelIdeal.Gen Cert.RankLoss Idealize.ShloMosaic Idealize.ShloMosaic.ValueIdx

/-- A [1, 1, 5120] block as its one row of lanes. -/
def rowOf (x : Vec Ideal S1x1x5120 .f32) : Fin 5120 → EReal := fun l => x (ix3 (0 : Fin 1) (0 : Fin 1) l)

/-! ## The lane sum

A vector of 5120 lanes viewed as one row of a [1, 5120] matrix, summed along the lane axis into [1], viewed as
[1, 1] and read at (0, 0): at the exact reals this is the plain sum of the lanes. -/

private theorem laneSum (w : FVec Ideal S5120 .f32) :
    extractAt ![0, 0] (shapeCast S1x1 (multiReduction (F := Ideal) .add [1] S1 (shapeCast S1x5120 w shapeCasts_S5120_S1x5120) 0x00000000#32 reduces_S1x5120_S1 (.inl rfl) rfl) shapeCasts_S1_S1x1) inpos_S1x1_p0_0
      = ∑ l : Fin 5120, w (ix1 l) := by
  have hpos : (fun a => ⟨(![0, 0] : Fin 2 → Nat) a, inpos_S1x1_p0_0 a⟩ : S1x1.Idx) = ix2 (0 : Fin 1) (0 : Fin 1) := by
    funext a; match a with | ⟨0, _⟩ => rfl | ⟨1, _⟩ => rfl
  unfold extractAt
  rw [hpos, shapeCast_a_1a_apply]
  refine (Ideal.multiReduction_add_single _ 0x00000000#32 reduces_S1x5120_S1 (.inl rfl) rfl (ix1 (0 : Fin 1))).trans ?_
  show ∑ l : Fin 5120, shapeCast S1x5120 w shapeCasts_S5120_S1x5120 (reduces_S1x5120_S1.lift (ix1 (0 : Fin 1)) l) = ∑ l : Fin 5120, w (ix1 l)
  refine Finset.sum_congr rfl fun l _ => ?_
  -- the source index over the one reduced index with lane l inserted is (0, l)
  have hl : reduces_S1x5120_S1.lift (ix1 (0 : Fin 1)) l = ix2 (0 : Fin 1) l := by
    funext a; apply Fin.ext; match a with | ⟨0, _⟩ => rfl | ⟨1, _⟩ => rfl
  rw [hl, shapeCast_a_1a_apply]

/-- A [1, 1, 5120] block viewed as a vector of 5120 lanes reads, at lane l, the block at (0, 0, l). -/
private theorem cast_lane (x : Vec Ideal S1x1x5120 .f32) (l : Fin 5120) :
    shapeCast S5120 x shapeCasts_S1x1x5120_S5120 (ix1 l) = rowOf x l :=
  shapeCast_apply x _ _ _ (by
    rw [Shape.rowMajor_val_three, Shape.rowMajor_val_one]
    show (0 * 1 + 0) * 5120 + l.val = l.val
    omega)

/-! ## The per-lane terms -/

private theorem pay2_lane (x : Vec Ideal S1x1x5120 .f32) (l : Fin 5120) : k0_pay2 (F := Ideal) x (ix1 l) = rowOf x l :=
  cast_lane x l
private theorem pay3_lane (x : Vec Ideal S1x1x5120 .f32) (l : Fin 5120) : k0_pay3 (F := Ideal) x (ix1 l) = rowOf x l :=
  cast_lane x l
private theorem pay4_lane (x : Vec Ideal S1x1x5120 .f32) (l : Fin 5120) : k0_pay4 (F := Ideal) x (ix1 l) = rowOf x l :=
  cast_lane x l

/-- The quotient of the two depth rows at a lane is the pair's ratio. -/
private theorem pay5_lane (x2 x3 : Vec Ideal S1x1x5120 .f32) (l : Fin 5120) :
    k0_pay5 (F := Ideal) x2 x3 (ix1 l) = ratio (rowOf x2 l) (rowOf x3 l) := by
  show Ideal.div (shapeCast S5120 x2 shapeCasts_S1x1x5120_S5120 (ix1 l))
      (shapeCast S5120 x3 shapeCasts_S1x1x5120_S5120 (ix1 l) + epsC) = _
  rw [cast_lane, cast_lane]; rfl

/-- The two comparisons of the ratio with the thresholds, conjoined, are the pair's "equal" bit. -/
private theorem pay6_lane (x2 x3 : Vec Ideal S1x1x5120 .f32) (l : Fin 5120) :
    k0_pay6 (F := Ideal) x2 x3 (ix1 l) = isEq (rowOf x2 l) (rowOf x3 l) := by
  show IntOp.andi (Ideal.cmp .olt (k0_pay5 (F := Ideal) x2 x3 (ix1 l)) hiC)
      (Ideal.cmp .ogt (k0_pay5 (F := Ideal) x2 x3 (ix1 l)) loC) = _
  rw [pay5_lane]; rfl

/-- The nested selects on the ratio are the pair's ordinal label. -/
private theorem pay7_lane (x2 x3 : Vec Ideal S1x1x5120 .f32) (l : Fin 5120) :
    k0_pay7 (F := Ideal) x2 x3 (ix1 l) = label (rowOf x2 l) (rowOf x3 l) := by
  show Scalar.select (Ideal.cmp .oge (k0_pay5 (F := Ideal) x2 x3 (ix1 l)) hiC) oneC
      (Scalar.select (Ideal.cmp .ole (k0_pay5 (F := Ideal) x2 x3 (ix1 l)) loC) negOneC zeroC) = _
  rw [pay5_lane]; rfl

/-- Both validity rows compared with one half, conjoined, are the pair's validity bit. -/
private theorem pay9_lane (x4 x5 : Vec Ideal S1x1x5120 .f32) (l : Fin 5120) :
    k0_pay9 (F := Ideal) (k0_pay4 x5) (k0_pay8 x4) (Scalar.ofBits .f32 0x3F000000#32) (ix1 l)
      = cmK (rowOf x4 l) (rowOf x5 l) := by
  show IntOp.andi (Ideal.cmp .ogt (shapeCast S5120 x4 shapeCasts_S1x1x5120_S5120 (ix1 l)) halfC)
      (Ideal.cmp .ogt (shapeCast S5120 x5 shapeCasts_S1x1x5120_S5120 (ix1 l)) halfC) = _
  rw [cast_lane, cast_lane]; rfl

/-! ## The three sums -/

/-- The first stored scalar: the sum over the lanes of the squared difference where the pair is equal and valid. -/
private theorem pay10_eq (v1 v3 v11 : FVec Ideal S5120 .f32) (v19 v30 : IVec S5120 1) (c : Ideal .f32) :
    k0_pay10 (F := Ideal) v1 v3 v11 v19 v30 c
      = ∑ l : Fin 5120, Scalar.select (IntOp.andi (v19 (ix1 l)) (k0_pay9 (F := Ideal) v11 v30 c (ix1 l)))
          ((v1 (ix1 l) - v3 (ix1 l)) * (v1 (ix1 l) - v3 (ix1 l))) zeroC := by
  unfold k0_pay10
  exact laneSum _

/-- The second stored scalar: the sum over the lanes of the stable softplus of the margin where the pair is unequal and
    valid. -/
private theorem pay11_eq (v1 v3 v11 : FVec Ideal S5120 .f32) (v19 : IVec S5120 1) (v28 : FVec Ideal S5120 .f32)
    (v30 : IVec S5120 1) (c : Ideal .f32) :
    k0_pay11 (F := Ideal) v1 v3 v11 v19 v28 v30 c
      = ∑ l : Fin 5120, Scalar.select
          (IntOp.andi (IntOp.xori (v19 (ix1 l)) 1#1) (k0_pay9 (F := Ideal) v11 v30 c (ix1 l)))
          (max ((v3 (ix1 l) - v1 (ix1 l)) * v28 (ix1 l)) zeroC
            + Ideal.log1p (Ideal.exp (zeroC - max ((v3 (ix1 l) - v1 (ix1 l)) * v28 (ix1 l))
                (-((v3 (ix1 l) - v1 (ix1 l)) * v28 (ix1 l)))))) zeroC := by
  unfold k0_pay11
  exact laneSum _

/-- The third stored row: at every lane, the number of valid pairs. -/
private theorem pay15_eq (v11 : FVec Ideal S5120 .f32) (v30 : IVec S5120 1) (c : Ideal .f32) (j : S1x128.Idx) :
    k0_pay15 (F := Ideal) v11 v30 c j
      = ∑ l : Fin 5120, Scalar.select (k0_pay9 (F := Ideal) v11 v30 c (ix1 l)) oneC zeroC := by
  unfold k0_pay15
  exact laneSum _

/-! ## The lane number -/

/-- Two lane numbers below 128, as 32-bit words, compare equal exactly when they are equal. -/
private theorem lane_bit (k : Fin 128) (c : Nat) (hc : c < 128) :
    IntOp.cmpi .eq (BitVec.ofNat 32 k.val) (BitVec.ofNat 32 c) = if k.val = c then 1#1 else 0#1 := by
  by_cases h : k.val = c
  · rw [if_pos h, h]; simp [IntOp.cmpi]
  · rw [if_neg h]
    have hne : BitVec.ofNat 32 k.val ≠ BitVec.ofNat 32 c := fun e => h (by
      have := congrArg BitVec.toNat e
      simp only [BitVec.toNat_ofNat] at this
      have hk := k.isLt
      omega)
    have hb : (BitVec.ofNat 32 k.val == BitVec.ofNat 32 c) = false := beq_eq_false_iff_ne.mpr hne
    show BitVec.ofBool (BitVec.ofNat 32 k.val == BitVec.ofNat 32 c) = 0#1
    rw [hb]; rfl

/-- The iota along the lane axis reads the lane number. -/
private theorem iota_lane (k : Fin 128) :
    iota .tc S1x128 32 [1] iota_S1x128_d1_w32 (ix2 (0 : Fin 1) k) = BitVec.ofNat 32 k.val :=
  iota_single_apply .tc S1x128 32 1 iota_S1x128_d1_w32 (ix2 (0 : Fin 1) k)

private theorem pay12_lane (k : Fin 128) : k0_pay12 (ix2 (0 : Fin 1) k) = if k.val = 0 then 1#1 else 0#1 := by
  show IntOp.cmpi .eq (iota .tc S1x128 32 [1] iota_S1x128_d1_w32 (ix2 (0 : Fin 1) k)) (BitVec.ofNat 32 0) = _
  rw [iota_lane]; exact lane_bit k 0 (by omega)
private theorem pay13_lane (k : Fin 128) : k0_pay13 (ix2 (0 : Fin 1) k) = if k.val = 1 then 1#1 else 0#1 := by
  show IntOp.cmpi .eq (iota .tc S1x128 32 [1] iota_S1x128_d1_w32 (ix2 (0 : Fin 1) k)) (BitVec.ofNat 32 1) = _
  rw [iota_lane]; exact lane_bit k 1 (by omega)
private theorem pay14_lane (k : Fin 128) : k0_pay14 (ix2 (0 : Fin 1) k) = if k.val = 2 then 1#1 else 0#1 := by
  show IntOp.cmpi .eq (iota .tc S1x128 32 [1] iota_S1x128_d1_w32 (ix2 (0 : Fin 1) k)) (BitVec.ofNat 32 2) = _
  rw [iota_lane]; exact lane_bit k 2 (by omega)

/-! ## The stored block -/

/-- Lane k of the output block is the lane value of the six input rows. -/
theorem out0_6_lane (x0 x1 x2 x3 x4 x5 : Vec Ideal S1x1x5120 .f32) (k : Fin 128) :
    out0_6 (F := Ideal) x0 x1 x2 x3 x4 x5 (ix3 (0 : Fin 1) (0 : Fin 1) k)
      = laneVal (rowOf x0) (rowOf x1) (rowOf x2) (rowOf x3) (rowOf x4) (rowOf x5) k := by
  have hz : (![0, 0, 0] : Fin 3 → Nat) = fun _ => 0 := funext fun a => by fin_cases a <;> rfl
  unfold out0_6
  rw [View.canon_unit_zero hz]
  simp only [View.ld_unit_zero (S := S1x1x5120) hz]
  unfold k0_pay1
  rw [shapeCast_ab_1ab_apply]
  -- the three selects on the lane number, read at lane k
  show Scalar.select (k0_pay12 (ix2 (0 : Fin 1) k)) (k0_pay10 (F := Ideal) _ _ _ _ _ _)
      (Scalar.select (k0_pay13 (ix2 (0 : Fin 1) k)) (k0_pay11 (F := Ideal) _ _ _ _ _ _ _)
        (Scalar.select (k0_pay14 (ix2 (0 : Fin 1) k)) (k0_pay15 (F := Ideal) _ _ _ (ix2 (0 : Fin 1) k)) zeroC)) = _
  rw [pay12_lane, pay13_lane, pay14_lane, pay10_eq, pay11_eq, pay15_eq]
  unfold laneVal
  by_cases h0 : k.val = 0
  · rw [if_pos h0, if_pos h0, select_one]
    refine Finset.sum_congr rfl fun l _ => ?_
    rw [pay6_lane, pay9_lane, pay2_lane, pay3_lane]; rfl
  · rw [if_neg h0, if_neg h0, select_zero]
    by_cases h1 : k.val = 1
    · rw [if_pos h1, if_pos h1, select_one]
      refine Finset.sum_congr rfl fun l _ => ?_
      rw [pay6_lane, pay7_lane, pay9_lane, pay2_lane, pay3_lane]; rfl
    · rw [if_neg h1, if_neg h1, select_zero]
      by_cases h2 : k.val = 2
      · rw [if_pos h2, if_pos h2, select_one]
        refine Finset.sum_congr rfl fun l _ => ?_
        rw [pay9_lane]; rfl
      · rw [if_neg h2, if_neg h2, select_zero]

end Cert.KernelIdeal.Block

end
-- ==== Proof.KerOut.lean ====
/-
  The kernel's output array after the region.

  The grid has one point per image. At image n the body reads block n of each of the six window arrays — the row
  (n, 0, ·) of 5120 lanes — and writes back block n of the output array, the row (n, 0, ·) of 128 lanes. The 32 output
  blocks tile the [32, 1, 128] array, so after the last write-back the array is, row by row, the body's result on that
  image's six rows.
-/
import proofs.«401007_j64742337020663_4_alg».proof.Proof.Gen.KernelIdeal.Frame
import Idealize.ShloMosaic.Lib.Pipeline.Value
import Idealize.ShloMosaic.Lib.ValueIdx
import proofs.«401007_j64742337020663_4_alg».proof.Proof.Block

noncomputable section

namespace Cert.KernelIdeal.KerOut

open Cert.KernelIdeal Cert.KernelIdeal.Gen Cert.KernelIdeal.Block Cert.RankLoss Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ)

/-- The grid point of image n. -/
def ptOf (n : Fin 32) : Fin cfg0.N := ⟨n.val, by have := n.isLt; have h : cfg0.N = 32 := N_0; omega⟩

/-- The six window arrays as the region finds them. -/
abbrev arr0 (c : Dev nD) : S32x1x5120.Idx → EReal := V m c main_v16
abbrev arr1 (c : Dev nD) : S32x1x5120.Idx → EReal := V m c main_v17
abbrev arr2 (c : Dev nD) : S32x1x5120.Idx → EReal := V m c main_v18
abbrev arr3 (c : Dev nD) : S32x1x5120.Idx → EReal := V m c main_v19
abbrev arr4 (c : Dev nD) : S32x1x5120.Idx → EReal := V m c main_v20
abbrev arr5 (c : Dev nD) : S32x1x5120.Idx → EReal := V m c main_v21

/-- Row n of a window array as 5120 lanes. -/
def rowAt (A : S32x1x5120.Idx → EReal) (n : Fin 32) : Fin 5120 → EReal := fun l => A (ix3 n (0 : Fin 1) l)

/-- The output array: lane k of row n is the lane value of image n's six rows. -/
def G (c : Dev nD) : S32x1x128.Idx → EReal := fun i =>
  laneVal (rowAt (arr0 m c) (i 0)) (rowAt (arr1 m c) (i 0)) (rowAt (arr2 m c) (i 0)) (rowAt (arr3 m c) (i 0))
    (rowAt (arr4 m c) (i 0)) (rowAt (arr5 m c) (i 0)) (i 2)

/-! ## The index maps

Every window's block index at image t is (t, 0, 0): decided once over the 32 points of the grid. -/

private theorem idx_in0 : ∀ t : Fin cfg0.N, win0_0.index t (0 : Fin 3) = t.val ∧ win0_0.index t (1 : Fin 3) = 0
    ∧ win0_0.index t (2 : Fin 3) = 0 :=
  (by decide +kernel : ∀ t : Fin grid0.N, _)

private theorem idx_in1 : ∀ t : Fin cfg0.N, win0_1.index t (0 : Fin 3) = t.val ∧ win0_1.index t (1 : Fin 3) = 0
    ∧ win0_1.index t (2 : Fin 3) = 0 :=
  (by decide +kernel : ∀ t : Fin grid0.N, _)

private theorem idx_in2 : ∀ t : Fin cfg0.N, win0_2.index t (0 : Fin 3) = t.val ∧ win0_2.index t (1 : Fin 3) = 0
    ∧ win0_2.index t (2 : Fin 3) = 0 :=
  (by decide +kernel : ∀ t : Fin grid0.N, _)

private theorem idx_in3 : ∀ t : Fin cfg0.N, win0_3.index t (0 : Fin 3) = t.val ∧ win0_3.index t (1 : Fin 3) = 0
    ∧ win0_3.index t (2 : Fin 3) = 0 :=
  (by decide +kernel : ∀ t : Fin grid0.N, _)

private theorem idx_in4 : ∀ t : Fin cfg0.N, win0_4.index t (0 : Fin 3) = t.val ∧ win0_4.index t (1 : Fin 3) = 0
    ∧ win0_4.index t (2 : Fin 3) = 0 :=
  (by decide +kernel : ∀ t : Fin grid0.N, _)

private theorem idx_in5 : ∀ t : Fin cfg0.N, win0_5.index t (0 : Fin 3) = t.val ∧ win0_5.index t (1 : Fin 3) = 0
    ∧ win0_5.index t (2 : Fin 3) = 0 :=
  (by decide +kernel : ∀ t : Fin grid0.N, _)

private theorem idx_out : ∀ t : Fin cfg0.N, win0_6.index t (0 : Fin 3) = t.val ∧ win0_6.index t (1 : Fin 3) = 0
    ∧ win0_6.index t (2 : Fin 3) = 0 :=
  (by decide +kernel : ∀ t : Fin grid0.N, _)

/-! ## The input blocks

A block's coordinate on an axis is the block index times the block's extent plus the coordinate inside the block. -/

/-- Image t's block of window 0 is row t of its array. -/
private theorem row0_blk (c : Dev nD) (t : Fin cfg0.N) (n : Fin 32) (hn : n.val = t.val) :
    rowOf (iblk m c 0 t) = rowAt (arr0 m c) n := by
  funext l
  show V m c main_v16 (((cfg0.win 0).blk t).view.emb (ix3 (0 : Fin 1) (0 : Fin 1) l)) = V m c main_v16 (ix3 n (0 : Fin 1) l)
  refine congrArg _ ?_
  obtain ⟨e0, e1, e2⟩ := idx_in0 t
  funext a; apply Fin.ext
  match a with
  | ⟨0, _⟩ => show win0_0.index t (0 : Fin 3) * 1 + 1 * 0 = n.val; omega
  | ⟨1, _⟩ => show win0_0.index t (1 : Fin 3) * 1 + 1 * 0 = 0; omega
  | ⟨2, _⟩ => show win0_0.index t (2 : Fin 3) * 5120 + 1 * l.val = l.val; omega

/-- Image t's block of window 1 is row t of its array. -/
private theorem row1_blk (c : Dev nD) (t : Fin cfg0.N) (n : Fin 32) (hn : n.val = t.val) :
    rowOf (iblk m c 1 t) = rowAt (arr1 m c) n := by
  funext l
  show V m c main_v17 (((cfg0.win 1).blk t).view.emb (ix3 (0 : Fin 1) (0 : Fin 1) l)) = V m c main_v17 (ix3 n (0 : Fin 1) l)
  refine congrArg _ ?_
  obtain ⟨e0, e1, e2⟩ := idx_in1 t
  funext a; apply Fin.ext
  match a with
  | ⟨0, _⟩ => show win0_1.index t (0 : Fin 3) * 1 + 1 * 0 = n.val; omega
  | ⟨1, _⟩ => show win0_1.index t (1 : Fin 3) * 1 + 1 * 0 = 0; omega
  | ⟨2, _⟩ => show win0_1.index t (2 : Fin 3) * 5120 + 1 * l.val = l.val; omega

/-- Image t's block of window 2 is row t of its array. -/
private theorem row2_blk (c : Dev nD) (t : Fin cfg0.N) (n : Fin 32) (hn : n.val = t.val) :
    rowOf (iblk m c 2 t) = rowAt (arr2 m c) n := by
  funext l
  show V m c main_v18 (((cfg0.win 2).blk t).view.emb (ix3 (0 : Fin 1) (0 : Fin 1) l)) = V m c main_v18 (ix3 n (0 : Fin 1) l)
  refine congrArg _ ?_
  obtain ⟨e0, e1, e2⟩ := idx_in2 t
  funext a; apply Fin.ext
  match a with
  | ⟨0, _⟩ => show win0_2.index t (0 : Fin 3) * 1 + 1 * 0 = n.val; omega
  | ⟨1, _⟩ => show win0_2.index t (1 : Fin 3) * 1 + 1 * 0 = 0; omega
  | ⟨2, _⟩ => show win0_2.index t (2 : Fin 3) * 5120 + 1 * l.val = l.val; omega

/-- Image t's block of window 3 is row t of its array. -/
private theorem row3_blk (c : Dev nD) (t : Fin cfg0.N) (n : Fin 32) (hn : n.val = t.val) :
    rowOf (iblk m c 3 t) = rowAt (arr3 m c) n := by
  funext l
  show V m c main_v19 (((cfg0.win 3).blk t).view.emb (ix3 (0 : Fin 1) (0 : Fin 1) l)) = V m c main_v19 (ix3 n (0 : Fin 1) l)
  refine congrArg _ ?_
  obtain ⟨e0, e1, e2⟩ := idx_in3 t
  funext a; apply Fin.ext
  match a with
  | ⟨0, _⟩ => show win0_3.index t (0 : Fin 3) * 1 + 1 * 0 = n.val; omega
  | ⟨1, _⟩ => show win0_3.index t (1 : Fin 3) * 1 + 1 * 0 = 0; omega
  | ⟨2, _⟩ => show win0_3.index t (2 : Fin 3) * 5120 + 1 * l.val = l.val; omega

/-- Image t's block of window 4 is row t of its array. -/
private theorem row4_blk (c : Dev nD) (t : Fin cfg0.N) (n : Fin 32) (hn : n.val = t.val) :
    rowOf (iblk m c 4 t) = rowAt (arr4 m c) n := by
  funext l
  show V m c main_v20 (((cfg0.win 4).blk t).view.emb (ix3 (0 : Fin 1) (0 : Fin 1) l)) = V m c main_v20 (ix3 n (0 : Fin 1) l)
  refine congrArg _ ?_
  obtain ⟨e0, e1, e2⟩ := idx_in4 t
  funext a; apply Fin.ext
  match a with
  | ⟨0, _⟩ => show win0_4.index t (0 : Fin 3) * 1 + 1 * 0 = n.val; omega
  | ⟨1, _⟩ => show win0_4.index t (1 : Fin 3) * 1 + 1 * 0 = 0; omega
  | ⟨2, _⟩ => show win0_4.index t (2 : Fin 3) * 5120 + 1 * l.val = l.val; omega

/-- Image t's block of window 5 is row t of its array. -/
private theorem row5_blk (c : Dev nD) (t : Fin cfg0.N) (n : Fin 32) (hn : n.val = t.val) :
    rowOf (iblk m c 5 t) = rowAt (arr5 m c) n := by
  funext l
  show V m c main_v21 (((cfg0.win 5).blk t).view.emb (ix3 (0 : Fin 1) (0 : Fin 1) l)) = V m c main_v21 (ix3 n (0 : Fin 1) l)
  refine congrArg _ ?_
  obtain ⟨e0, e1, e2⟩ := idx_in5 t
  funext a; apply Fin.ext
  match a with
  | ⟨0, _⟩ => show win0_5.index t (0 : Fin 3) * 1 + 1 * 0 = n.val; omega
  | ⟨1, _⟩ => show win0_5.index t (1 : Fin 3) * 1 + 1 * 0 = 0; omega
  | ⟨2, _⟩ => show win0_5.index t (2 : Fin 3) * 5120 + 1 * l.val = l.val; omega

/-! ## The output blocks -/

/-- The element (0, 0, k) of image t's output block sits at (t, 0, k) of the output array. -/
private theorem out_emb (t : Fin cfg0.N) (n : Fin 32) (hn : n.val = t.val) (k : Fin 128) :
    (((cfg0.win 6).blk t).view.emb (ix3 (0 : Fin 1) (0 : Fin 1) k) : S32x1x128.Idx) = ix3 n (0 : Fin 1) k := by
  obtain ⟨e0, e1, e2⟩ := idx_out t
  funext a; apply Fin.ext
  match a with
  | ⟨0, _⟩ => show win0_6.index t (0 : Fin 3) * 1 + 1 * 0 = n.val; omega
  | ⟨1, _⟩ => show win0_6.index t (1 : Fin 3) * 1 + 1 * 0 = 0; omega
  | ⟨2, _⟩ => show win0_6.index t (2 : Fin 3) * 128 + 1 * k.val = k.val; omega

/-- What image t writes back is block t of G. -/
private theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  have hN : cfg0.N = 32 := N_0
  have ht := t.isLt
  funext j
  obtain ⟨a, b, k, rfl⟩ : ∃ (a b : Fin 1) (k : Fin 128), j = ix3 a b k := ⟨j 0, j 1, j 2, eq_ix3 j⟩
  obtain rfl : a = 0 := Subsingleton.elim _ _
  obtain rfl : b = 0 := Subsingleton.elim _ _
  show out0_6 (F := Ideal) (iblk m c 0 t) (iblk m c 1 t) (iblk m c 2 t) (iblk m c 3 t) (iblk m c 4 t) (iblk m c 5 t)
      (ix3 (0 : Fin 1) (0 : Fin 1) k) = G m c (((cfg0.win 6).blk t).view.emb (ix3 (0 : Fin 1) (0 : Fin 1) k))
  rw [out0_6_lane, out_emb t ⟨t.val, by omega⟩ rfl k,
    row0_blk m c t ⟨t.val, by omega⟩ rfl, row1_blk m c t ⟨t.val, by omega⟩ rfl, row2_blk m c t ⟨t.val, by omega⟩ rfl,
    row3_blk m c t ⟨t.val, by omega⟩ rfl, row4_blk m c t ⟨t.val, by omega⟩ rfl, row5_blk m c t ⟨t.val, by omega⟩ rfl]
  rfl

/-! ## The cover -/

/-- An index of the output array is in image t's block iff each coordinate is in the block's range on its axis. -/
private theorem mem_blk (t : Fin cfg0.N) (i : S32x1x128.Idx) :
    i ∈ ((cfg0.win 6).blk t).view.set ↔ ∀ a : Fin 3, win0_6.index t a * S1x1x128.size a ≤ (i a).val
      ∧ (i a).val < win0_6.index t a * S1x1x128.size a + S1x1x128.size a := by
  show i ∈ ((View.whole main_v22).slice (win0_6.rect t)).set ↔ _
  rw [View.set_slice_whole, Rect.mem_set_unit]
  exact Iff.rfl

/-- Row n of the output array is image n's block. -/
private theorem cover (i : S32x1x128.Idx) :
    ∃ t : Fin cfg0.N, (cfg0.win 6).flush t = true ∧ i ∈ ((cfg0.win 6).blk t).view.set := by
  refine ⟨ptOf (i 0), flush0_6 _, ?_⟩
  rw [mem_blk]
  obtain ⟨e0, e1, e2⟩ := idx_out (ptOf (i 0))
  have h0 : (ptOf (i 0)).val = (i 0).val := rfl
  have h1 : (i 1).val < 1 := (i 1).isLt
  have h2 : (i 2).val < 128 := (i 2).isLt
  intro a
  match a with
  | ⟨0, _⟩ => show win0_6.index (ptOf (i 0)) (0 : Fin 3) * 1 ≤ (i 0).val ∧ (i 0).val < win0_6.index (ptOf (i 0)) (0 : Fin 3) * 1 + 1; omega
  | ⟨1, _⟩ => show win0_6.index (ptOf (i 0)) (1 : Fin 3) * 1 ≤ (i 1).val ∧ (i 1).val < win0_6.index (ptOf (i 0)) (1 : Fin 3) * 1 + 1; omega
  | ⟨2, _⟩ => show win0_6.index (ptOf (i 0)) (2 : Fin 3) * 128 ≤ (i 2).val ∧ (i 2).val < win0_6.index (ptOf (i 0)) (2 : Fin 3) * 128 + 128; omega

/-! ## The array -/

/-- After the region the output window's array is G. -/
theorem final6 (c : Dev nD) : ((dats m 0 c).arrAt 6 cfg0.N : S32x1x128.Idx → EReal) = G m c :=
  (dats m 0 c).arrAt_eq_of_cover 6 (G m c) (fun t _ => flushed_eq m c t) cover

end Cert.KernelIdeal.KerOut

end
-- ==== Proof.Tail.lean ====
/-
  The host operations after the region, as a function of the kernel's [32, 1, 128] output array.

  Lanes 0, 1 and 2 of every image's row are cut out, each as a [32, 1, 1] slice seen as a vector of 32, and summed
  over the images from an initial zero: the equal sum E, the unequal sum U and the count Cn. The result is
  (1 · E + U) / (Cn + ε) · 1. At the exact-real instance a host sum over one axis is its initial value plus the sum
  over that axis.
-/
import proofs.«401007_j64742337020663_4_alg».proof.Proof.Gen.KernelIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«401007_j64742337020663_4_alg».proof.Proof.LossDefs

noncomputable section

open scoped BigOperators

namespace Cert.KernelIdeal.Tail

open Cert.KernelIdeal Cert.KernelIdeal.Gen Cert.KernelIdeal.Facts Cert.RankLoss Idealize.ShloMosaic
  Idealize.ShloMosaic.ValueIdx

/-- Lane k of every image, as a vector over the images. -/
def laneVec (k : Fin 3) (A : S32x1x128.Idx → EReal) : S32.Idx → EReal :=
  match k with
  | 0 => shapeCast S32 (extractStridedSlice S32x1x1 ![0, 0, 0] A slices_S32x1x128_S32x1x1_0_0_0) shapeCasts_S32x1x1_S32
  | 1 => shapeCast S32 (extractStridedSlice S32x1x1 ![0, 0, 1] A slices_S32x1x128_S32x1x1_0_0_1) shapeCasts_S32x1x1_S32
  | 2 => shapeCast S32 (extractStridedSlice S32x1x1 ![0, 0, 2] A slices_S32x1x128_S32x1x1_0_0_2) shapeCasts_S32x1x1_S32

/-- The operations after the region applied to the output array A. -/
def tailTerm (A : S32x1x128.Idx → EReal) : S_.Idx → EReal :=
  mulf
    (Host.divf
      (addf
        (mulf (constant (F := Ideal) S_ .f32 0x3F800000#32)
          (Host.reduceAdd (F := Ideal) (laneVec 0 A) (constant (F := Ideal) S_ .f32 0x00000000#32) reducesTo_S32_S_d0 h_S_))
        (Host.reduceAdd (F := Ideal) (laneVec 1 A) (constant (F := Ideal) S_ .f32 0x00000000#32) reducesTo_S32_S_d0 h_S_))
      (addf
        (Host.reduceAdd (F := Ideal) (laneVec 2 A) (constant (F := Ideal) S_ .f32 0x00000000#32) reducesTo_S32_S_d0 h_S_)
        (constant (F := Ideal) S_ .f32 0x358637BD#32)))
    (constant (F := Ideal) S_ .f32 0x3F800000#32)

/-- The [32, 1, 1] slice at lane offset k, seen as a vector of 32, holds at image n the array at (n, 0, k): the cast
    keeps the row-major position n, and the slice adds its offset on each axis. -/
private theorem lane_read (k : Nat) (hk : k < 128) (A : S32x1x128.Idx → EReal)
    (hsl : S32x1x128.Slices ![0, 0, k] S32x1x1) (n : Fin 32) :
    shapeCast S32 (extractStridedSlice S32x1x1 ![0, 0, k] A hsl) shapeCasts_S32x1x1_S32 (ix1 n)
      = A (ix3 n (0 : Fin 1) (⟨k, hk⟩ : Fin 128)) := by
  rw [shapeCast_apply _ shapeCasts_S32x1x1_S32 (ix1 n) (ix3 n (0 : Fin 1) (0 : Fin 1)) (by
    rw [Shape.rowMajor_val_three, Shape.rowMajor_val_one]
    show (n.val * 1 + 0) * 1 + 0 = n.val
    omega)]
  exact extractStridedSlice_apply _ A hsl _ _ (by
    intro a
    match a with
    | ⟨0, _⟩ => show n.val = 0 + n.val; omega
    | ⟨1, _⟩ => show 0 = 0 + 0; rfl
    | ⟨2, _⟩ => show k = k + 0; rfl)

/-- Lane k of every image, at image n, is the output array at (n, 0, k). -/
private theorem laneVec_apply (k : Fin 3) (A : S32x1x128.Idx → EReal) (n : Fin 32) :
    laneVec k A (ix1 n) = A (ix3 n (0 : Fin 1) (⟨k.val, by have := k.isLt; omega⟩ : Fin 128)) := by
  match k with
  | 0 => exact lane_read 0 (by decide) A slices_S32x1x128_S32x1x1_0_0_0 n
  | 1 => exact lane_read 1 (by decide) A slices_S32x1x128_S32x1x1_0_0_1 n
  | 2 => exact lane_read 2 (by decide) A slices_S32x1x128_S32x1x1_0_0_2 n

/-- An index of the vector of 32 images is its one coordinate. -/
private def idxEquiv1 : Fin 32 ≃ S32.Idx where
  toFun n := ix1 n
  invFun j := j 0
  left_inv _ := rfl
  right_inv j := (eq_ix1 j).symm

/-- The host sum of a vector over the 32 images, from the initial zero word, is that word plus the sum of the entries. -/
private theorem hostSum_apply (x : S32.Idx → EReal) (i : S_.Idx) :
    Host.reduceAdd (F := Ideal) (φ := .f32) x (constant (F := Ideal) S_ .f32 0x00000000#32) reducesTo_S32_S_d0 h_S_ i
      = zeroC + ∑ n : Fin 32, x (ix1 n) := by
  simp only [Host.reduceAdd, Ideal.hostReduceAdd_def]
  -- the result has rank 0, so every image reduces to its one index: the sum runs over all of them
  rw [Ideal.hostReduceAdd_total reducesTo_S32_S_d0 (fun b => b.elim0) x _ i, ← Equiv.sum_comp idxEquiv1 x]
  rfl

/-- The tail is the loss of the three lane sums over the images. -/
theorem tailTerm_apply (A : S32x1x128.Idx → EReal) (i : S_.Idx) :
    tailTerm A i
      = loss (zeroC + ∑ n : Fin 32, A (ix3 n (0 : Fin 1) (⟨0, by decide⟩ : Fin 128)))
          (zeroC + ∑ n : Fin 32, A (ix3 n (0 : Fin 1) (⟨1, by decide⟩ : Fin 128)))
          (zeroC + ∑ n : Fin 32, A (ix3 n (0 : Fin 1) (⟨2, by decide⟩ : Fin 128))) := by
  unfold tailTerm loss
  -- pointwise at the one index: products, sums and the quotient of the three host sums and the literal words
  show Ideal.div
        (oneC * Host.reduceAdd (F := Ideal) (φ := .f32) (laneVec 0 A) (constant (F := Ideal) S_ .f32 0x00000000#32)
            reducesTo_S32_S_d0 h_S_ i
          + Host.reduceAdd (F := Ideal) (φ := .f32) (laneVec 1 A) (constant (F := Ideal) S_ .f32 0x00000000#32)
            reducesTo_S32_S_d0 h_S_ i)
        (Host.reduceAdd (F := Ideal) (φ := .f32) (laneVec 2 A) (constant (F := Ideal) S_ .f32 0x00000000#32)
            reducesTo_S32_S_d0 h_S_ i + epsC) * oneC = _
  rw [hostSum_apply, hostSum_apply, hostSum_apply]
  simp only [laneVec_apply]
  rfl

end Cert.KernelIdeal.Tail

end
-- ==== Proof.KerValue.lean ====
/-
  The kernel program's run with its result named.

  After the region the output window's array holds, in lanes 0, 1, 2 of image n's row, the three sums over that
  image's 5120 padded lanes; the operations after the region sum each lane over the 32 images and combine the three
  sums. Reading each window array back as a padded, gathered array of the arguments gives the result as kerLoss of the
  six gathered arrays: predictions at A and B, depths at A and B, the mask floats at A and B.
-/
import proofs.«401007_j64742337020663_4_alg».proof.Proof.KerIn
import proofs.«401007_j64742337020663_4_alg».proof.Proof.KerOut
import proofs.«401007_j64742337020663_4_alg».proof.Proof.Tail

noncomputable section

open scoped BigOperators

namespace Cert.KernelIdeal.KerValue

open Cert.KernelIdeal Cert.KernelIdeal.Gen Cert.KernelIdeal.Facts Cert.KernelIdeal.WinArr Cert.KernelIdeal.KerIn
  Cert.KernelIdeal.KerOut Cert.KernelIdeal.Tail Cert.RankLoss Idealize.ShloMosaic Idealize.ShloMosaic.TcCoe
  Idealize.SL.Sem Idealize.ShloMosaic.StableHlo Idealize.ShloMosaic.ValueIdx

variable (m : (ℓ : Loc nD τ sig) → Buf (Elt Ideal) ℓ) (ρ : Dev nD → PrngReg)

/-- The kernel program's result on core c: kerLoss of its six gathered arrays. -/
def kerResult (c : Dev nD) : EReal :=
  kerLoss (takeK (predTab m c) (idxA m c)) (takeK (predTab m c) (idxB m c)) (takeK (depthTab m c) (idxA m c))
    (takeK (depthTab m c) (idxB m c)) (takeK (maskTab m c) (idxA m c)) (takeK (maskTab m c) (idxB m c))

set_option maxHeartbeats 4000000 in
/-- The operations after the region read the output window's array and nothing else of the region. -/
theorem tail_eq (c : Dev nD) :
    (Pipeline.afterTail₀ cfgs (dats m) 0 (V0 m) [hostOps1] c main_v36 : S_.Idx → EReal)
      = tailTerm ((dats m 0 c).arrAt 6 cfg0.N) := by
  unfold Pipeline.afterTail₀
  show StableHlo.after hostOps1 _ (Proc.devRef .tc main_v36) = _
  after_results
  rw [Pipeline.withArrays_arr _ launch0.win.arr_inj c (V0 m c) _ 6]
  rfl

/-- Row n of each window array is the padded row n of the gathered array it was made from. -/
theorem row0 (c : Dev nD) (n : Fin 32) : rowAt (arr0 m c) n = padRow (takeK (predTab m c) (idxA m c)) n := by
  funext l; show (V m c main_v16 : S32x1x5120.Idx → EReal) (ix3 n (0 : Fin 1) l) = _; rw [V_main_v16, winArr_apply]
theorem row1 (c : Dev nD) (n : Fin 32) : rowAt (arr1 m c) n = padRow (takeK (predTab m c) (idxB m c)) n := by
  funext l; show (V m c main_v17 : S32x1x5120.Idx → EReal) (ix3 n (0 : Fin 1) l) = _; rw [V_main_v17, winArr_apply]
theorem row2 (c : Dev nD) (n : Fin 32) : rowAt (arr2 m c) n = padRow (takeK (depthTab m c) (idxA m c)) n := by
  funext l; show (V m c main_v18 : S32x1x5120.Idx → EReal) (ix3 n (0 : Fin 1) l) = _; rw [V_main_v18, winArr_apply]
theorem row3 (c : Dev nD) (n : Fin 32) : rowAt (arr3 m c) n = padRow (takeK (depthTab m c) (idxB m c)) n := by
  funext l; show (V m c main_v19 : S32x1x5120.Idx → EReal) (ix3 n (0 : Fin 1) l) = _; rw [V_main_v19, winArr_apply]
theorem row4 (c : Dev nD) (n : Fin 32) : rowAt (arr4 m c) n = padRow (takeK (maskTab m c) (idxA m c)) n := by
  funext l; show (V m c main_v20 : S32x1x5120.Idx → EReal) (ix3 n (0 : Fin 1) l) = _; rw [V_main_v20, winArr_apply]
theorem row5 (c : Dev nD) (n : Fin 32) : rowAt (arr5 m c) n = padRow (takeK (maskTab m c) (idxB m c)) n := by
  funext l; show (V m c main_v21 : S32x1x5120.Idx → EReal) (ix3 n (0 : Fin 1) l) = _; rw [V_main_v21, winArr_apply]

/-- Lane k of row n of the output array, over the gathered arrays. -/
theorem G_lane (c : Dev nD) (n : Fin 32) (k : Fin 128) :
    G m c (ix3 n (0 : Fin 1) k)
      = laneVal (padRow (takeK (predTab m c) (idxA m c)) n) (padRow (takeK (predTab m c) (idxB m c)) n)
          (padRow (takeK (depthTab m c) (idxA m c)) n) (padRow (takeK (depthTab m c) (idxB m c)) n)
          (padRow (takeK (maskTab m c) (idxA m c)) n) (padRow (takeK (maskTab m c) (idxB m c)) n) k := by
  show laneVal (rowAt (arr0 m c) n) (rowAt (arr1 m c) n) (rowAt (arr2 m c) n) (rowAt (arr3 m c) n)
      (rowAt (arr4 m c) n) (rowAt (arr5 m c) n) k = _
  rw [row0, row1, row2, row3, row4, row5]

/-- The result buffer after the run. -/
theorem result_eq (c : Dev nD) :
    (Pipeline.afterTail₀ cfgs (dats m) 0 (V0 m) [hostOps1] c main_v36 : S_.Idx → EReal) = fun _ => kerResult m c := by
  rw [tail_eq, final6]
  funext i
  rw [tailTerm_apply]
  unfold kerResult kerLoss
  simp only [G_lane]

/-- Every weakly fair execution of the kernel program terminates with the result at kerResult and the arguments
    unchanged. -/
theorem run : θ_run defs (onTc (τ := τ) (main (F := Ideal))) ⟨m, fun _ => 0, ρ⟩ fun r => ∀ c : Dev nD,
      r.2.mem ((c.tc : Thread nD τ).loc main_v36) = (fun _ => kerResult m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v36 (Pipeline.mem_restRefs_of main_v36 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerValue

end
-- ==== Proof.lean ====
/-
  The ranking loss of 32 images, 5000 sampled pixel pairs each: the kernel program against its reference, over the
  extended reals.

  Both programs gather predictions, depths and validity at the pair indices A and B by take_along_axis. The reference
  gathers the validity mask as bits and sums every pair's terms at once; the kernel program gathers it as the floats
  0 and 1, pads each image's row of pairs to 5120 lanes, sums per image inside the kernel and over the images on the
  host, and writes the unequal term in its overflow-safe spelling. Under the precondition every index lies in
  [-524288, 524288), so no take_along_axis uses its out-of-range fill (the one place the two programs would differ: a
  NaN word for a float table, true for a bit table) and the float validity exceeds one half exactly where the bit is
  set; padded lanes are invalid and add nothing; the two spellings of the unequal term are one extended real; and a sum
  of extended reals may be taken image by image. Finiteness of the inputs is not used.

  The frames of the two kernel programs are the generated frame certificates; the reference's frame and value are its
  run read back; the idealization rewrote nothing, so there is nothing to preserve.
-/
import proofs.«401007_j64742337020663_4_alg».proof.Defs
import proofs.«401007_j64742337020663_4_alg».proof.Proof.Gen.Kernel
import proofs.«401007_j64742337020663_4_alg».proof.Proof.Gen.Kernel.Skeleton
import proofs.«401007_j64742337020663_4_alg».proof.Proof.Gen.Kernel.Launch
import proofs.«401007_j64742337020663_4_alg».proof.Proof.Gen.Kernel.Points
import proofs.«401007_j64742337020663_4_alg».proof.Proof.Gen.Kernel.Frame
import proofs.«401007_j64742337020663_4_alg».proof.Proof.Gen.KernelIdeal
import proofs.«401007_j64742337020663_4_alg».proof.Proof.Gen.KernelIdeal.Skeleton
import proofs.«401007_j64742337020663_4_alg».proof.Proof.Gen.KernelIdeal.Launch
import proofs.«401007_j64742337020663_4_alg».proof.Proof.Gen.KernelIdeal.Points
import proofs.«401007_j64742337020663_4_alg».proof.Proof.Gen.KernelIdeal.Frame
import proofs.«401007_j64742337020663_4_alg».proof.Proof.Gen.ReferenceIdeal
import proofs.«401007_j64742337020663_4_alg».proof.Proof.RefRun
import proofs.«401007_j64742337020663_4_alg».proof.Proof.RefRead
import proofs.«401007_j64742337020663_4_alg».proof.Proof.Gen.Pre_finite_inputs
import proofs.«401007_j64742337020663_4_alg».proof.Proof.PreRange
import proofs.«401007_j64742337020663_4_alg».proof.Proof.Bridge
import proofs.«401007_j64742337020663_4_alg».proof.Proof.RefValue
import proofs.«401007_j64742337020663_4_alg».proof.Proof.KerValue
import Idealize.ShloMosaic.Adequacy
import Idealize.ShloMosaic.Init

noncomputable section

namespace Cert.Proof

open Idealize.ShloMosaic Idealize.SL.Sem Cert.RankLoss

/-- The reference's gathered arrays are the kernel program's, table by table, once the arguments agree: the two
    programs spell take_along_axis with the same operations, the same constants and the same gather record. -/
theorem takes_agree (X : Cert.KernelIdeal.S32x524288.Idx → EReal) (I : IVec Cert.KernelIdeal.S32x5000 32) :
    Cert.ReferenceIdeal.RefValue.takeR Cert.ReferenceIdeal.RefValue.fillF X I = Cert.KernelIdeal.KerIn.takeK X I := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' hpre hagree
  refine ⟨fun c _ => Cert.KernelIdeal.KerValue.kerResult m c, Cert.KernelIdeal.KerValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨hA, hB⟩ := inRange_of_pre _ _ _ _ _ (hpre c)
  obtain ⟨e0, e1, e2, e3, e4⟩ := hagree c
  rw [Cert.ReferenceIdeal.ReadP.val_main_v45_eq, e0, e1, e2, e3, e4]
  funext i
  rw [Cert.ReferenceIdeal.RefValue.ref_value, Cert.ReferenceIdeal.RefValue.val_main_v3_eq,
    Cert.ReferenceIdeal.RefValue.val_main_v4_eq, Cert.ReferenceIdeal.RefValue.val_main_v5_eq,
    Cert.ReferenceIdeal.RefValue.val_main_v6_eq, Cert.ReferenceIdeal.RefValue.val_main_v7_eq,
    Cert.ReferenceIdeal.RefValue.val_main_v8_eq]
  unfold Cert.KernelIdeal.KerValue.kerResult
  exact (kerLoss_eq_refLoss _ _ _ _ _ _ _ _
    (fun j => Cert.RankLoss.takeWith_mask _ _ _ _ _ _ _ _ _ _ hA j)
    (fun j => Cert.RankLoss.takeWith_mask _ _ _ _ _ _ _ _ _ _ hB j)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
